-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S1024x100 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x100 : Shape := ⟨2, ![16384, 100]⟩
abbrev S4000x400 : Shape := ⟨2, ![4000, 400]⟩
abbrev S2000x400 : Shape := ⟨2, ![2000, 400]⟩
abbrev S100x400 : Shape := ⟨2, ![100, 400]⟩
abbrev S4x4000 : Shape := ⟨2, ![4, 4000]⟩
abbrev S4x2000 : Shape := ⟨2, ![4, 2000]⟩
abbrev S16384 : Shape := ⟨1, ![16384]⟩
abbrev S_ : Shape := ⟨0, ![]⟩

class Facts : Prop where
  bcast_S_S16384x100 : S_.BroadcastsInDim S16384x100 (![] : Fin 0 → Fin S16384x100.rank)
  reducesTo_S16384x100_S_d0_1 : S16384x100.ReducesTo [0, 1] S_
  h_S_ : 0 < S_.numel
  bcast_S_S4000x400 : S_.BroadcastsInDim S4000x400 (![] : Fin 0 → Fin S4000x400.rank)
  reducesTo_S4000x400_S_d0_1 : S4000x400.ReducesTo [0, 1] S_
  bcast_S_S2000x400 : S_.BroadcastsInDim S2000x400 (![] : Fin 0 → Fin S2000x400.rank)
  reducesTo_S2000x400_S_d0_1 : S2000x400.ReducesTo [0, 1] S_
  bcast_S_S100x400 : S_.BroadcastsInDim S100x400 (![] : Fin 0 → Fin S100x400.rank)
  reducesTo_S100x400_S_d0_1 : S100x400.ReducesTo [0, 1] S_
  bcast_S_S4x4000 : S_.BroadcastsInDim S4x4000 (![] : Fin 0 → Fin S4x4000.rank)
  reducesTo_S4x4000_S_d0_1 : S4x4000.ReducesTo [0, 1] S_
  bcast_S_S4x2000 : S_.BroadcastsInDim S4x2000 (![] : Fin 0 → Fin S4x2000.rank)
  reducesTo_S4x2000_S_d0_1 : S4x2000.ReducesTo [0, 1] S_
  bcast_S_S16384 : S_.BroadcastsInDim S16384 (![] : Fin 0 → Fin S16384.rank)
  reducesTo_S16384_S_d0 : S16384.ReducesTo [0] S_

variable [Facts]

def fn_part2 {F : FTy → Type} [FloatOps F] (main_v28 : IVec S_ 1) (main_v33 : IVec S16384 1) : IVec S_ 1 :=
  let main_c_12 : IVec S_ 1 := constantI S_ 1 1#1
  let main_v34 : IVec S_ 1 := (fun x v => Host.reduce IntOp.andi x v reducesTo_S16384_S_d0 h_S_) main_v33 main_c_12
  let main_v35 : IVec S_ 1 := andi main_v28 main_v34
  main_v35

def fn_part1 {F : FTy → Type} [FloatOps F] (main_arg4 : FVec F S4x4000 .f32) (main_arg5 : FVec F S4x2000 .f32) (main_arg6 : IVec S16384 32) (main_v13 : IVec S_ 1) (main_v16 : IVec S100x400 1) : IVec S_ 1 :=
  let main_c_5 : IVec S_ 1 := constantI S_ 1 1#1
  let main_v17 : IVec S_ 1 := (fun x v => Host.reduce IntOp.andi x v reducesTo_S100x400_S_d0_1 h_S_) main_v16 main_c_5
  let main_v18 : IVec S_ 1 := andi main_v13 main_v17
  let main_v19 : FVec F S4x4000 .f32 := Host.absf main_arg4
  let main_cst_6 : FVec F S_ .f32 := constant S_ .f32 0x7F800000#32
  let main_v20 : FVec F S4x4000 .f32 := broadcastInDim S4x4000 ![] bcast_S_S4x4000 main_cst_6
  let main_v21 : IVec S4x4000 1 := cmpf .olt main_v19 main_v20
  let main_c_7 : IVec S_ 1 := constantI S_ 1 1#1
  let main_v22 : IVec S_ 1 := (fun x v => Host.reduce IntOp.andi x v reducesTo_S4x4000_S_d0_1 h_S_) main_v21 main_c_7
  let main_v23 : IVec S_ 1 := andi main_v18 main_v22
  let main_v24 : FVec F S4x2000 .f32 := Host.absf main_arg5
  let main_cst_8 : FVec F S_ .f32 := constant S_ .f32 0x7F800000#32
  let main_v25 : FVec F S4x2000 .f32 := broadcastInDim S4x2000 ![] bcast_S_S4x2000 main_cst_8
  let main_v26 : IVec S4x2000 1 := cmpf .olt main_v24 main_v25
  let main_c_9 : IVec S_ 1 := constantI S_ 1 1#1
  let main_v27 : IVec S_ 1 := (fun x v => Host.reduce IntOp.andi x v reducesTo_S4x2000_S_d0_1 h_S_) main_v26 main_c_9
  let main_v28 : IVec S_ 1 := andi main_v23 main_v27
  let main_c_10 : IVec S_ 32 := constantI S_ 32 0#32
  let main_v29 : IVec S16384 32 := broadcastInDim S16384 ![] bcast_S_S16384 main_c_10
  let main_v30 : IVec S16384 1 := cmpi .sge main_arg6 main_v29
  let main_c_11 : IVec S_ 32 := constantI S_ 32 4#32
  let main_v31 : IVec S16384 32 := broadcastInDim S16384 ![] bcast_S_S16384 main_c_11
  let main_v32 : IVec S16384 1 := cmpi .slt main_arg6 main_v31
  let main_v33 : IVec S16384 1 := andi main_v30 main_v32
  fn_part2 (F := F) main_v28 main_v33

def fn {F : FTy → Type} [FloatOps F] (main_arg0 : FVec F S16384x100 .f32) (main_arg1 : FVec F S4000x400 .f32) (main_arg2 : FVec F S2000x400 .f32) (main_arg3 : FVec F S100x400 .f32) (main_arg4 : FVec F S4x4000 .f32) (main_arg5 : FVec F S4x2000 .f32) (main_arg6 : IVec S16384 32) : IVec S_ 1 :=
  let main_v0 : FVec F S16384x100 .f32 := Host.absf main_arg0
  let main_cst : FVec F S_ .f32 := constant S_ .f32 0x7F800000#32
  let main_v1 : FVec F S16384x100 .f32 := broadcastInDim S16384x100 ![] bcast_S_S16384x100 main_cst
  let main_v2 : IVec S16384x100 1 := cmpf .olt main_v0 main_v1
  let main_c : IVec S_ 1 := constantI S_ 1 1#1
  let main_v3 : IVec S_ 1 := (fun x v => Host.reduce IntOp.andi x v reducesTo_S16384x100_S_d0_1 h_S_) main_v2 main_c
  let main_v4 : FVec F S4000x400 .f32 := Host.absf main_arg1
  let main_cst_0 : FVec F S_ .f32 := constant S_ .f32 0x7F800000#32
  let main_v5 : FVec F S4000x400 .f32 := broadcastInDim S4000x400 ![] bcast_S_S4000x400 main_cst_0
  let main_v6 : IVec S4000x400 1 := cmpf .olt main_v4 main_v5
  let main_c_1 : IVec S_ 1 := constantI S_ 1 1#1
  let main_v7 : IVec S_ 1 := (fun x v => Host.reduce IntOp.andi x v reducesTo_S4000x400_S_d0_1 h_S_) main_v6 main_c_1
  let main_v8 : IVec S_ 1 := andi main_v3 main_v7
  let main_v9 : FVec F S2000x400 .f32 := Host.absf main_arg2
  let main_cst_2 : FVec F S_ .f32 := constant S_ .f32 0x7F800000#32
  let main_v10 : FVec F S2000x400 .f32 := broadcastInDim S2000x400 ![] bcast_S_S2000x400 main_cst_2
  let main_v11 : IVec S2000x400 1 := cmpf .olt main_v9 main_v10
  let main_c_3 : IVec S_ 1 := constantI S_ 1 1#1
  let main_v12 : IVec S_ 1 := (fun x v => Host.reduce IntOp.andi x v reducesTo_S2000x400_S_d0_1 h_S_) main_v11 main_c_3
  let main_v13 : IVec S_ 1 := andi main_v8 main_v12
  let main_v14 : FVec F S100x400 .f32 := Host.absf main_arg3
  let main_cst_4 : FVec F S_ .f32 := constant S_ .f32 0x7F800000#32
  let main_v15 : FVec F S100x400 .f32 := broadcastInDim S100x400 ![] bcast_S_S100x400 main_cst_4
  let main_v16 : IVec S100x400 1 := cmpf .olt main_v14 main_v15
  fn_part1 (F := F) main_arg4 main_arg5 main_arg6 main_v13 main_v16
-- ==== Kernel.lean ====
abbrev S16384x100 : Shape := ⟨2, ![16384, 100]⟩
abbrev S4000x400 : Shape := ⟨2, ![4000, 400]⟩
abbrev S2000x400 : Shape := ⟨2, ![2000, 400]⟩
abbrev S100x400 : Shape := ⟨2, ![100, 400]⟩
abbrev S4x4000 : Shape := ⟨2, ![4, 4000]⟩
abbrev S4x2000 : Shape := ⟨2, ![4, 2000]⟩
abbrev S16384 : Shape := ⟨1, ![16384]⟩
abbrev S100x4000 : Shape := ⟨2, ![100, 4000]⟩
abbrev S100x2000 : Shape := ⟨2, ![100, 2000]⟩
abbrev S16384x1 : Shape := ⟨2, ![16384, 1]⟩
abbrev S16384x4000 : Shape := ⟨2, ![16384, 4000]⟩
abbrev S16384x2000 : Shape := ⟨2, ![16384, 2000]⟩
abbrev S1024x100 : Shape := ⟨2, ![1024, 100]⟩
abbrev S1024x1 : Shape := ⟨2, ![1024, 1]⟩
abbrev S1024x4000 : Shape := ⟨2, ![1024, 4000]⟩
abbrev S1024x2000 : Shape := ⟨2, ![1024, 2000]⟩
abbrev S1024x4 : Shape := ⟨2, ![1024, 4]⟩
abbrev S1024 : Shape := ⟨1, ![1024]⟩

abbrev nBuf : Space → Nat
  | .hbm => 20
  | .vmem => 14
  | .smem => 0
  | _ => 0

abbrev bufTy : (tb : Table) → Fin (tcTables nBuf tb) → BufTy
  | .hbm, ⟨0, _⟩ => ⟨S16384x100, .f32⟩
  | .hbm, ⟨1, _⟩ => ⟨S4000x400, .f32⟩
  | .hbm, ⟨2, _⟩ => ⟨S2000x400, .f32⟩
  | .hbm, ⟨3, _⟩ => ⟨S100x400, .f32⟩
  | .hbm, ⟨4, _⟩ => ⟨S4x4000, .f32⟩
  | .hbm, ⟨5, _⟩ => ⟨S4x2000, .f32⟩
  | .hbm, ⟨6, _⟩ => ⟨S16384, .i32⟩
  | .hbm, ⟨7, _⟩ => ⟨S100x4000, .f32⟩
  | .hbm, ⟨8, _⟩ => ⟨S100x2000, .f32⟩
  | .hbm, ⟨9, _⟩ => ⟨S100x4000, .bf16⟩
  | .hbm, ⟨10, _⟩ => ⟨S100x4000, .f32⟩
  | .hbm, ⟨11, _⟩ => ⟨S100x4000, .f32⟩
  | .hbm, ⟨12, _⟩ => ⟨S100x4000, .bf16⟩
  | .hbm, ⟨13, _⟩ => ⟨S100x2000, .bf16⟩
  | .hbm, ⟨14, _⟩ => ⟨S100x2000, .f32⟩
  | .hbm, ⟨15, _⟩ => ⟨S100x2000, .f32⟩
  | .hbm, ⟨16, _⟩ => ⟨S100x2000, .bf16⟩
  | .hbm, ⟨17, _⟩ => ⟨S16384x1, .i32⟩
  | .hbm, ⟨18, _⟩ => ⟨S16384x4000, .f32⟩
  | .hbm, ⟨19, _⟩ => ⟨S16384x2000, .f32⟩
  | .local _ .vmem, ⟨0, _⟩ => ⟨S1024x100, .f32⟩
  | .local _ .vmem, ⟨1, _⟩ => ⟨S1024x100, .f32⟩
  | .local _ .vmem, ⟨2, _⟩ => ⟨S1024x1, .i32⟩
  | .local _ .vmem, ⟨3, _⟩ => ⟨S1024x1, .i32⟩
  | .local _ .vmem, ⟨4, _⟩ => ⟨S100x4000, .bf16⟩
  | .local _ .vmem, ⟨5, _⟩ => ⟨S100x4000, .bf16⟩
  | .local _ .vmem, ⟨6, _⟩ => ⟨S100x2000, .bf16⟩
  | .local _ .vmem, ⟨7, _⟩ => ⟨S100x2000, .bf16⟩
  | .local _ .vmem, ⟨8, _⟩ => ⟨S4x4000, .f32⟩
  | .local _ .vmem, ⟨9, _⟩ => ⟨S4x2000, .f32⟩
  | .local _ .vmem, ⟨10, _⟩ => ⟨S1024x4000, .f32⟩
  | .local _ .vmem, ⟨11, _⟩ => ⟨S1024x4000, .f32⟩
  | .local _ .vmem, ⟨12, _⟩ => ⟨S1024x2000, .f32⟩
  | .local _ .vmem, ⟨13, _⟩ => ⟨S1024x2000, .f32⟩
  | _, _ => ⟨S16384x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x4000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x4000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x2000 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x2000 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x4000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x2000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x4000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x2000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S16384_S16384x1 : S16384.ShapeCasts S16384x1
  inb_S1024x100_S1024x100_0_0 : ∀ a, (![0, 0] : Fin 2 → Nat) a + S1024x100.size a ≤ S1024x100.size a
  h_S1024x100 : 0 < S1024x100.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S4x4000_S4x4000_0_0 : ∀ a, (![0, 0] : Fin 2 → Nat) a + S4x4000.size a ≤ S4x4000.size a
  h_S4x4000 : 0 < S4x4000.numel
  inb_S4x2000_S4x2000_0_0 : ∀ a, (![0, 0] : Fin 2 → Nat) a + S4x2000.size a ≤ S4x2000.size a
  h_S4x2000 : 0 < S4x2000.numel
  iota_S1024x4_d1_w32 : S1024x4.Iotas .tc 32 [1]
  broadcasts_S1024x1_S1024x4 : S1024x1.Broadcasts S1024x4
  natLt_1_32 : 1 < 32
  inb_S100x4000_S100x4000_0_0 : ∀ a, (![0, 0] : Fin 2 → Nat) a + S100x4000.size a ≤ S100x4000.size a
  h_S100x4000 : 0 < S100x4000.numel
  shapeCasts_S100x4000_S100x4000 : S100x4000.ShapeCasts S100x4000
  reduces_S1024x4000_S1024 : S1024x4000.Reduces [1] S1024
  shapeCasts_S1024_S1024x1 : S1024.ShapeCasts S1024x1
  broadcasts_S1024x1_S1024x4000 : S1024x1.Broadcasts S1024x4000
  inb_S1024x4000_S1024x4000_0_0 : ∀ a, (![0, 0] : Fin 2 → Nat) a + S1024x4000.size a ≤ S1024x4000.size a
  h_S1024x4000 : 0 < S1024x4000.numel
  inb_S100x2000_S100x2000_0_0 : ∀ a, (![0, 0] : Fin 2 → Nat) a + S100x2000.size a ≤ S100x2000.size a
  h_S100x2000 : 0 < S100x2000.numel
  shapeCasts_S100x2000_S100x2000 : S100x2000.ShapeCasts S100x2000
  reduces_S1024x2000_S1024 : S1024x2000.Reduces [1] S1024
  broadcasts_S1024x1_S1024x2000 : S1024x1.Broadcasts S1024x2000
  inb_S1024x2000_S1024x2000_0_0 : ∀ a, (![0, 0] : Fin 2 → Nat) a + S1024x2000.size a ≤ S1024x2000.size a
  h_S1024x2000 : 0 < S1024x2000.numel
  dot_S100x400_S4000x400_S100x4000_1_1_0_0_n_n_wf : DotDims.WF S100x400 S4000x400 S100x4000 [1] [1] [0] [0] [] []
  dot_S100x400_S2000x400_S100x2000_1_1_0_0_n_n_wf : DotDims.WF S100x400 S2000x400 S100x2000 [1] [1] [0] [0] [] []
  dot_S1024x100_S100x4000_S1024x4000_1_0_0_1_n_n_wf : DotDims.WF S1024x100 S100x4000 S1024x4000 [1] [0] [0] [1] [] []
  dot_S1024x4_S4x4000_S1024x4000_1_0_0_1_n_n_wf : DotDims.WF S1024x4 S4x4000 S1024x4000 [1] [0] [0] [1] [] []
  dot_S1024x100_S100x2000_S1024x2000_1_0_0_1_n_n_wf : DotDims.WF S1024x100 S100x2000 S1024x2000 [1] [0] [0] [1] [] []
  dot_S1024x4_S4x2000_S1024x2000_1_0_0_1_n_n_wf : DotDims.WF S1024x4 S4x2000 S1024x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x100.size a ≤ S16384x100.size a
  hwx0_0 : ∀ i : grid0.Coords, EltTy.bits .f32 = 32 ∨ (Rect.block (s := S16384x100) S1024x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x4000.size a ≤ S100x4000.size a
  hwx0_2 : ∀ i : grid0.Coords, EltTy.bits .bf16 = 32 ∨ (Rect.block (s := S100x4000) S100x4000.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x4000.size a ≤ S100x4000.size a
  hwx0_3 : ∀ i : grid0.Coords, EltTy.bits .bf16 = 32 ∨ (Rect.block (s := S100x4000) S100x4000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x2000.size a ≤ S100x2000.size a
  hwx0_4 : ∀ i : grid0.Coords, EltTy.bits .bf16 = 32 ∨ (Rect.block (s := S100x2000) S100x2000.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x2000.size a ≤ S100x2000.size a
  hwx0_5 : ∀ i : grid0.Coords, EltTy.bits .bf16 = 32 ∨ (Rect.block (s := S100x2000) S100x2000.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x4000.size a ≤ S4x4000.size a
  hwx0_6 : ∀ i : grid0.Coords, EltTy.bits .f32 = 32 ∨ (Rect.block (s := S4x4000) S4x4000.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x2000.size a ≤ S4x2000.size a
  hwx0_7 : ∀ i : grid0.Coords, EltTy.bits .f32 = 32 ∨ (Rect.block (s := S4x2000) S4x2000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x4000.size a ≤ S16384x4000.size a
  hwx0_8 : ∀ i : grid0.Coords, EltTy.bits .f32 = 32 ∨ (Rect.block (s := S16384x4000) S1024x4000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x2000.size a ≤ S16384x2000.size a
  hwx0_9 : ∀ i : grid0.Coords, EltTy.bits .f32 = 32 ∨ (Rect.block (s := S16384x2000) S1024x2000.size (cc0_transform_9 i) (hinb0_9 i)).WholeWords (EltTy.packing .f32)

variable [Facts₀]

def dot_S100x400_S4000x400_S100x4000_1_1_0_0_n_n : DotDims S100x400 S4000x400 S100x4000 where
  lhsContracting := [1]
  rhsContracting := [1]
  lhsNonContracting := [0]
  rhsNonContracting := [0]
  lhsBatch := []
  rhsBatch := []
  wf := dot_S100x400_S4000x400_S100x4000_1_1_0_0_n_n_wf
def dot_S100x400_S2000x400_S100x2000_1_1_0_0_n_n : DotDims S100x400 S2000x400 S100x2000 where
  lhsContracting := [1]
  rhsContracting := [1]
  lhsNonContracting := [0]
  rhsNonContracting := [0]
  lhsBatch := []
  rhsBatch := []
  wf := dot_S100x400_S2000x400_S100x2000_1_1_0_0_n_n_wf
def dot_S1024x100_S100x4000_S1024x4000_1_0_0_1_n_n : DotDims S1024x100 S100x4000 S1024x4000 where
  lhsContracting := [1]
  rhsContracting := [0]
  lhsNonContracting := [0]
  rhsNonContracting := [1]
  lhsBatch := []
  rhsBatch := []
  wf := dot_S1024x100_S100x4000_S1024x4000_1_0_0_1_n_n_wf
def dot_S1024x4_S4x4000_S1024x4000_1_0_0_1_n_n : DotDims S1024x4 S4x4000 S1024x4000 where
  lhsContracting := [1]
  rhsContracting := [0]
  lhsNonContracting := [0]
  rhsNonContracting := [1]
  lhsBatch := []
  rhsBatch := []
  wf := dot_S1024x4_S4x4000_S1024x4000_1_0_0_1_n_n_wf
def dot_S1024x100_S100x2000_S1024x2000_1_0_0_1_n_n : DotDims S1024x100 S100x2000 S1024x2000 where
  lhsContracting := [1]
  rhsContracting := [0]
  lhsNonContracting := [0]
  rhsNonContracting := [1]
  lhsBatch := []
  rhsBatch := []
  wf := dot_S1024x100_S100x2000_S1024x2000_1_0_0_1_n_n_wf
def dot_S1024x4_S4x2000_S1024x2000_1_0_0_1_n_n : DotDims S1024x4 S4x2000 S1024x2000 where
  lhsContracting := [1]
  rhsContracting := [0]
  lhsNonContracting := [0]
  rhsNonContracting := [1]
  lhsBatch := []
  rhsBatch := []
  wf := dot_S1024x4_S4x2000_S1024x2000_1_0_0_1_n_n_wf

abbrev win0_0 : Pipeline.Window sig grid0 :=
  Pipeline.Window.ofSpec (Memref.whole main_arg0) S1024x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S100x4000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S100x4000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S100x2000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S100x2000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S4x4000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S4x2000.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S1024x4000.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S1024x2000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x100 : Shape := ⟨2, ![16384, 100]⟩
abbrev S4000x400 : Shape := ⟨2, ![4000, 400]⟩
abbrev S2000x400 : Shape := ⟨2, ![2000, 400]⟩
abbrev S100x400 : Shape := ⟨2, ![100, 400]⟩
abbrev S4x4000 : Shape := ⟨2, ![4, 4000]⟩
abbrev S4x2000 : Shape := ⟨2, ![4, 2000]⟩
abbrev S16384 : Shape := ⟨1, ![16384]⟩
abbrev S400x4000 : Shape := ⟨2, ![400, 4000]⟩
abbrev S100x4000 : Shape := ⟨2, ![100, 4000]⟩
abbrev S16384x4000 : Shape := ⟨2, ![16384, 4000]⟩
abbrev S_ : Shape := ⟨0, ![]⟩
abbrev S16384x1 : Shape := ⟨2, ![16384, 1]⟩
abbrev S400x2000 : Shape := ⟨2, ![400, 2000]⟩
abbrev S100x2000 : Shape := ⟨2, ![100, 2000]⟩
abbrev S16384x2000 : Shape := ⟨2, ![16384, 2000]⟩

abbrev nBuf : Space → Nat
  | .hbm => 63
  | .vmem => 0
  | .smem => 0
  | _ => 0

abbrev bufTy : (tb : Table) → Fin (tcTables nBuf tb) → BufTy
  | .hbm, ⟨0, _⟩ => ⟨S16384x100, .f32⟩
  | .hbm, ⟨1, _⟩ => ⟨S4000x400, .f32⟩
  | .hbm, ⟨2, _⟩ => ⟨S2000x400, .f32⟩
  | .hbm, ⟨3, _⟩ => ⟨S100x400, .f32⟩
  | .hbm, ⟨4, _⟩ => ⟨S4x4000, .f32⟩
  | .hbm, ⟨5, _⟩ => ⟨S4x2000, .f32⟩
  | .hbm, ⟨6, _⟩ => ⟨S16384, .i32⟩
  | .hbm, ⟨7, _⟩ => ⟨S400x4000, .f32⟩
  | .hbm, ⟨8, _⟩ => ⟨S100x4000, .f32⟩
  | .hbm, ⟨9, _⟩ => ⟨S16384x4000, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S16384x4000, .f32⟩
  | .hbm, ⟨19, _⟩ => ⟨S16384x4000, .f32⟩
  | .hbm, ⟨20, _⟩ => ⟨S_, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384x1, .f32⟩
  | .hbm, ⟨26, _⟩ => ⟨S16384x4000, .f32⟩
  | .hbm, ⟨27, _⟩ => ⟨S16384x4000, .f32⟩
  | .hbm, ⟨28, _⟩ => ⟨S16384x4000, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S16384x1, .f32⟩
  | .hbm, ⟨33, _⟩ => ⟨S16384x4000, .f32⟩
  | .hbm, ⟨34, _⟩ => ⟨S16384x4000, .f32⟩
  | .hbm, ⟨35, _⟩ => ⟨S400x2000, .f32⟩
  | .hbm, ⟨36, _⟩ => ⟨S100x2000, .f32⟩
  | .hbm, ⟨37, _⟩ => ⟨S16384x2000, .f32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S16384x2000, .f32⟩
  | .hbm, ⟨47, _⟩ => ⟨S16384x2000, .f32⟩
  | .hbm, ⟨48, _⟩ => ⟨S_, .f32⟩
  | .hbm, ⟨49, _⟩ => ⟨S16384, .f32⟩
  | .hbm, ⟨50, _⟩ => ⟨S_, .f32⟩
  | .hbm, ⟨51, _⟩ => ⟨S16384, .f32⟩
  | .hbm, ⟨52, _⟩ => ⟨S16384, .f32⟩
  | .hbm, ⟨53, _⟩ => ⟨S16384x1, .f32⟩
  | .hbm, ⟨54, _⟩ => ⟨S16384x2000, .f32⟩
  | .hbm, ⟨55, _⟩ => ⟨S16384x2000, .f32⟩
  | .hbm, ⟨56, _⟩ => ⟨S16384x2000, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S16384x1, .f32⟩
  | .hbm, ⟨61, _⟩ => ⟨S16384x2000, .f32⟩
  | .hbm, ⟨62, _⟩ => ⟨S16384x2000, .f32⟩
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_call0_cst_0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_cst_1 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_1 : Ref sig .tc := ⟨.hbm, 38, rfl⟩
abbrev main_v15 : Ref sig .tc := ⟨.hbm, 39, rfl⟩
abbrev main_v16 : Ref sig .tc := ⟨.hbm, 40, rfl⟩
abbrev main_c_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_call1_cst : Ref sig .tc := ⟨.hbm, 48, rfl⟩
abbrev main_call1_v0 : Ref sig .tc := ⟨.hbm, 49, rfl⟩
abbrev main_call1_cst_0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_cst_1 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_v23 : Ref sig .tc := ⟨.hbm, 62, rfl⟩

abbrev nD : Nat := 1
abbrev τ : Topo := Topo.v7x

variable {F : FTy → Type} [FloatOps F]

class Facts₀ : Prop where
  transposes_S4000x400_S400x4000_1_0 : S4000x400.Transposes [1, 0] S400x4000
  bcast_S_S16384 : S_.BroadcastsInDim S16384 (![] : Fin 0 → Fin S16384.rank)
  bcast_S16384_S16384x1_0 : S16384.BroadcastsInDim S16384x1 (![0] : Fin 1 → Fin S16384x1.rank)
  reducesTo_S16384x4000_S16384_d1 : S16384x4000.ReducesTo [1] S16384
  h_S_ : 0 < S_.numel
  bcast_S16384x1_S16384x4000_0_1 : S16384x1.BroadcastsInDim S16384x4000 (![0, 1] : Fin 2 → Fin S16384x4000.rank)
  transposes_S2000x400_S400x2000_1_0 : S2000x400.Transposes [1, 0] S400x2000
  reducesTo_S16384x2000_S16384_d1 : S16384x2000.ReducesTo [1] S16384
  bcast_S16384x1_S16384x2000_0_1 : S16384x1.BroadcastsInDim S16384x2000 (![0, 1] : Fin 2 → Fin S16384x2000.rank)
  dot_S100x400_S400x4000_S100x4000_1_0_0_1_n_n_wf : DotDims.WF S100x400 S400x4000 S100x4000 [1] [0] [0] [1] [] []
  dot_S16384x100_S100x4000_S16384x4000_1_0_0_1_n_n_wf : DotDims.WF S16384x100 S100x4000 S16384x4000 [1] [0] [0] [1] [] []
  gather_S4x4000_S16384x1_S16384x4000_1_0_n_n_0_1_14000_wf : GatherDims.WF S4x4000 S16384x1 S16384x4000 [1] [0] [] [0] [] 1 ![1, 4000]
  dot_S100x400_S400x2000_S100x2000_1_0_0_1_n_n_wf : DotDims.WF S100x400 S400x2000 S100x2000 [1] [0] [0] [1] [] []
  dot_S16384x100_S100x2000_S16384x2000_1_0_0_1_n_n_wf : DotDims.WF S16384x100 S100x2000 S16384x2000 [1] [0] [0] [1] [] []
  gather_S4x2000_S16384x1_S16384x2000_1_0_n_n_0_1_12000_wf : GatherDims.WF S4x2000 S16384x1 S16384x2000 [1] [0] [] [0] [] 1 ![1, 2000]

variable [Facts₀]

def dot_S100x400_S400x4000_S100x4000_1_0_0_1_n_n : DotDims S100x400 S400x4000 S100x4000 where
  lhsContracting := [1]
  rhsContracting := [0]
  lhsNonContracting := [0]
  rhsNonContracting := [1]
  lhsBatch := []
  rhsBatch := []
  wf := dot_S100x400_S400x4000_S100x4000_1_0_0_1_n_n_wf
def dot_S16384x100_S100x4000_S16384x4000_1_0_0_1_n_n : DotDims S16384x100 S100x4000 S16384x4000 where
  lhsContracting := [1]
  rhsContracting := [0]
  lhsNonContracting := [0]
  rhsNonContracting := [1]
  lhsBatch := []
  rhsBatch := []
  wf := dot_S16384x100_S100x4000_S16384x4000_1_0_0_1_n_n_wf
def gather_S4x4000_S16384x1_S16384x4000_1_0_n_n_0_1_14000 : GatherDims S4x4000 S16384x1 S16384x4000 where
  offsetDims := [1]
  collapsedSliceDims := [0]
  operandBatchingDims := []
  startIndicesBatchingDims := []
  startIndexMap := [0]
  indexVectorDim := 1
  sliceSizes := ![1, 4000]
  wf := gather_S4x4000_S16384x1_S16384x4000_1_0_n_n_0_1_14000_wf
def dot_S100x400_S400x2000_S100x2000_1_0_0_1_n_n : DotDims S100x400 S400x2000 S100x2000 where
  lhsContracting := [1]
  rhsContracting := [0]
  lhsNonContracting := [0]
  rhsNonContracting := [1]
  lhsBatch := []
  rhsBatch := []
  wf := dot_S100x400_S400x2000_S100x2000_1_0_0_1_n_n_wf
def dot_S16384x100_S100x2000_S16384x2000_1_0_0_1_n_n : DotDims S16384x100 S100x2000 S16384x2000 where
  lhsContracting := [1]
  rhsContracting := [0]
  lhsNonContracting := [0]
  rhsNonContracting := [1]
  lhsBatch := []
  rhsBatch := []
  wf := dot_S16384x100_S100x2000_S16384x2000_1_0_0_1_n_n_wf
def gather_S4x2000_S16384x1_S16384x2000_1_0_n_n_0_1_12000 : GatherDims S4x2000 S16384x1 S16384x2000 where
  offsetDims := [1]
  collapsedSliceDims := [0]
  operandBatchingDims := []
  startIndicesBatchingDims := []
  startIndexMap := [0]
  indexVectorDim := 1
  sliceSizes := ![1, 2000]
  wf := gather_S4x2000_S16384x1_S16384x2000_1_0_n_n_0_1_12000_wf

class Facts : Prop extends Facts₀ where

variable [Facts]
-- ==== Proof.Spec.lean ====
/-
  The mathematics of the two-headed mixture output, free of any program.

  For a width `M` (4000 for the first head, 2000 for the second) the result array is, at row `n` and column `q`,
  the log-softmax over the row of the logits
      logit n k = Σ_z θ[n, z] · T[z, k] + bias[row(domain[n]), k],        T[z, k] = Σ_e β[z, e] · α[k, e],
  on the extended reals. `head` is that array as one function of the argument arrays.

  The row maximum is a fold of `max` started at the word both programs print for −∞; the word is never
  evaluated, since the same fold stands on both sides. Two algebraic facts join the kernel to the reference:
  `x − x = 0` for a FINITE `x` (so the low halves of the kernel's split operands vanish and three partial
  products collapse to one), and a product with a one-hot row picks one row of the table.
-/
import Idealize.ShloMosaic.PureOps.Ideal
import Idealize.ShloMosaic.Lib.ValueIdx

noncomputable section

open scoped BigOperators

namespace Cert.Moe

open Idealize.ShloMosaic Idealize.ShloMosaic.ValueIdx

/-! ## Rows -/

/-- The maximum of a row, folded from the f32 word of −∞. -/
def rowMax {M : Nat} (row : Fin M → EReal) : EReal :=
  (Finset.univ : Finset (Fin M)).fold max (Ideal.ofBits .f32 0xFF800000#32) row

/-- The fold's starting value lies below the fold, so one more `max` with it changes nothing. -/
theorem max_start_rowMax {M : Nat} (row : Fin M → EReal) :
    max (Ideal.ofBits .f32 0xFF800000#32) (rowMax row) = rowMax row :=
  max_eq_right ((Finset.le_fold_max _).2 (Or.inl le_rfl))

/-- The log-softmax of a row at column `k`: the entry shifted by the row maximum, less the logarithm of the sum of
    the exponentials of the shifted row. -/
def logSoftmax {M : Nat} (row : Fin M → EReal) (k : Fin M) : EReal :=
  (row k - rowMax row) - Ideal.log (∑ j : Fin M, Ideal.exp (row j - rowMax row))

/-! ## The domain word -/

/-- Entry `r` of the one-hot row of a domain word: one where lane number `r`, as a 32-bit word, is that word. -/
def onehot (w : BitVec 32) (r : Fin 4) : EReal := if BitVec.ofNat 32 r.val = w then 1 else 0

/-- The table row an indexed read `bias[w]` takes: a negative index wrapped by the extent 4, then clamped into the table. -/
def gatherRow (w : BitVec 32) : Fin 4 :=
  ⟨min (if w.slt 0#32 then w + 4#32 else w).toInt.toNat 3, by omega⟩

/-- For a domain word in range, `0 ≤ w < 4` as a signed integer, neither the wrap nor the clamp acts. -/
theorem gatherRow_val {w : BitVec 32} (h0 : 0 ≤ w.toInt) (h4 : w.toInt < 4) : (gatherRow w).val = w.toNat := by
  have hs : w.slt 0#32 = false := by
    rw [BitVec.slt_eq_decide]; simpa using h0
  have hn : w.toInt = (w.toNat : Int) := by
    rw [BitVec.toInt_eq_toNat_cond] at h0 h4 ⊢
    split <;> rename_i hlt
    · rfl
    · exfalso; rw [if_neg hlt] at h0; have := w.isLt; omega
  simp only [gatherRow, hs, Bool.false_eq_true, if_false, hn, Int.toNat_natCast]
  omega

/-- … and the one-hot row of such a word is the indicator of that row. -/
theorem onehot_eq {w : BitVec 32} (h0 : 0 ≤ w.toInt) (h4 : w.toInt < 4) (r : Fin 4) :
    onehot w r = if r = gatherRow w then 1 else 0 := by
  have hv := gatherRow_val h0 h4
  have hn : w.toInt = (w.toNat : Int) := by
    rw [BitVec.toInt_eq_toNat_cond] at h0 h4 ⊢
    split <;> rename_i hlt
    · rfl
    · exfalso; rw [if_neg hlt] at h0; have := w.isLt; omega
  have hw4 : w.toNat < 4 := by omega
  unfold onehot
  by_cases hr : r = gatherRow w
  · rw [if_pos hr, if_pos]
    apply BitVec.eq_of_toNat_eq
    rw [BitVec.toNat_ofNat, hr, hv]
    exact Nat.mod_eq_of_lt (by omega)
  · rw [if_neg hr, if_neg]
    intro he
    apply hr
    apply Fin.ext
    rw [hv, ← he, BitVec.toNat_ofNat]
    exact (Nat.mod_eq_of_lt (by have := r.isLt; omega)).symm

/-! ## Finite values -/

/-- An extended real that is a real number. -/
def IsReal (x : EReal) : Prop := ∃ r : ℝ, x = (r : EReal)

theorem IsReal.sub_self {x : EReal} (h : IsReal x) : x - x = 0 := by
  obtain ⟨r, rfl⟩ := h
  rw [← EReal.coe_sub, _root_.sub_self, EReal.coe_zero]

/-- The coercion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is a real. -/
theorem IsReal.sum_mul {K : Nat} (f g : Fin K → EReal) (hf : ∀ k, IsReal (f k)) (hg : ∀ k, IsReal (g k)) :
    IsReal (∑ k, f k * g k) := by
  choose rf hrf using hf
  choose rg hrg using hg
  refine ⟨∑ k, rf k * rg k, ?_⟩
  rw [coe_sum]
  exact Finset.sum_congr rfl fun k _ => by rw [hrf k, hrg k, EReal.coe_mul]

/-! ## The logits -/

/-- The three partial products of the split operands and the one-hot product with the bias table collapse, for
    finite `x` and vanishing low parts `tl`, to one product plus the selected bias row. -/
theorem splitLogit_eq {K : Nat} (x t tl : Fin K → EReal) (oh b : Fin 4 → EReal) (s : Fin 4)
    (hx : ∀ z, IsReal (x z)) (htl : ∀ z, tl z = 0) (hoh : ∀ r, oh r = if r = s then 1 else 0) :
    (((∑ z, x z * t z) + (∑ z, x z * tl z)) + (∑ z, (x z - x z) * t z)) + ∑ r, oh r * b r
      = (∑ z, x z * t z) + b s := by
  have h2 : (∑ z, x z * tl z) = 0 := Finset.sum_eq_zero fun z _ => by rw [htl z, mul_zero]
  have h3 : (∑ z, (x z - x z) * t z) = 0 := Finset.sum_eq_zero fun z _ => by rw [(hx z).sub_self, zero_mul]
  have h4 : (∑ r, oh r * b r) = b s := by
    rw [Finset.sum_eq_single s]
    · rw [hoh s, if_pos rfl, one_mul]
    · intro r _ hr; rw [hoh r, if_neg hr, zero_mul]
    · intro h; exact absurd (Finset.mem_univ s) h
  rw [h2, h3, h4, add_zero, add_zero]

/-- The topic matrix: β contracted with α over the embedding axis. -/
def topic {M : Nat} (β : (⟨2, ![100, 400]⟩ : Shape).Idx → EReal) (α : (⟨2, ![M, 400]⟩ : Shape).Idx → EReal)
    (z : Fin 100) (k : Fin M) : EReal :=
  ∑ e : Fin 400, β (ix2 z e) * α (ix2 k e)

theorem topic_isReal {M : Nat} (β : (⟨2, ![100, 400]⟩ : Shape).Idx → EReal) (α : (⟨2, ![M, 400]⟩ : Shape).Idx → EReal)
    (hβ : ∀ i, IsReal (β i)) (hα : ∀ i, IsReal (α i)) (z : Fin 100) (k : Fin M) : IsReal (topic β α z k) :=
  IsReal.sum_mul _ _ (fun _ => hβ _) (fun _ => hα _)

/-- One logit: θ's row against the topic column, plus the bias of the row the domain word selects. -/
def logit {M : Nat} (θ : (⟨2, ![16384, 100]⟩ : Shape).Idx → EReal) (α : (⟨2, ![M, 400]⟩ : Shape).Idx → EReal)
    (β : (⟨2, ![100, 400]⟩ : Shape).Idx → EReal) (b : (⟨2, ![4, M]⟩ : Shape).Idx → EReal)
    (d : (⟨1, ![16384]⟩ : Shape).Idx → BitVec 32) (n : Fin 16384) (k : Fin M) : EReal :=
  (∑ z : Fin 100, θ (ix2 n z) * topic β α z k) + b (ix2 (gatherRow (d (ix1 n))) k)

/-- THE RESULT ARRAY of one head, as one function of the argument arrays. -/
def head {M : Nat} (θ : (⟨2, ![16384, 100]⟩ : Shape).Idx → EReal) (α : (⟨2, ![M, 400]⟩ : Shape).Idx → EReal)
    (β : (⟨2, ![100, 400]⟩ : Shape).Idx → EReal) (b : (⟨2, ![4, M]⟩ : Shape).Idx → EReal)
    (d : (⟨1, ![16384]⟩ : Shape).Idx → BitVec 32) : (⟨2, ![16384, M]⟩ : Shape).Idx → EReal :=
  fun i => logSoftmax (logit θ α β b d ⟨(i 0).val, idx2_lt0 i⟩) ⟨(i 1).val, idx2_lt1 i⟩

theorem head_ix2 {M : Nat} (θ : (⟨2, ![16384, 100]⟩ : Shape).Idx → EReal) (α : (⟨2, ![M, 400]⟩ : Shape).Idx → EReal)
    (β : (⟨2, ![100, 400]⟩ : Shape).Idx → EReal) (b : (⟨2, ![4, M]⟩ : Shape).Idx → EReal)
    (d : (⟨1, ![16384]⟩ : Shape).Idx → BitVec 32) (n : Fin 16384) (q : Fin M) :
    head θ α β b d (ix2 n q) = logSoftmax (logit θ α β b d n) q := rfl

end Cert.Moe

end
-- ==== Proof.PreFacts.lean ====
/-
  What the precondition says of the argument arrays: every float entry is a real number, and every domain word is
  one of 0, 1, 2, 3 read as a signed integer.
-/
import proofs.«415379_j53764400611707_3_alg».proof.Pre_finite_inputs
import proofs.«415379_j53764400611707_3_alg».proof.Proof.Spec
import Idealize.ShloMosaic.Lib.ReduceAll
import Idealize.ShloMosaic.Lib.StableHlo.Predicate
import Idealize.ShloMosaic.Lib.IdealHost
import Idealize.ShloMosaic.Lib.ValueIdx

noncomputable section

namespace Cert.Moe.Pre

open Idealize.ShloMosaic Idealize.ShloMosaic.ValueIdx Cert.Pre_finite_inputs Cert.Moe

/-- The scalar shape has one index. -/
private instance : Subsingleton S_.Idx := ⟨fun a b => funext fun d => d.elim0⟩

/-- The word 0x7F800000 denotes +∞. -/
private theorem inf_word : Ideal.ofBits .f32 0x7F800000#32 = (⊤ : EReal) := by
  simp [Ideal.ofBits, Ideal.ieee]

/-- An extended real whose absolute value max x (-x) is strictly below +∞ is a real number: −∞ and +∞ both have
    absolute value +∞. -/
private theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- One float array: if the conjunction over all entries of |x| < +∞ is 1, every entry is real. -/
private theorem allReal {s : Shape} {axes : List (Fin s.rank)} (a : FVec Ideal s .f32)
    (bc : S_.BroadcastsInDim s (![] : Fin 0 → Fin s.rank)) (red : s.ReducesTo axes S_) (hS : 0 < S_.numel)
    (e : Host.reduce IntOp.andi (cmpf .olt (Host.absf a) (broadcastInDim s ![] bc (constant (F := Ideal) S_ .f32 0x7F800000#32)))
      (constantI S_ 1 1#1) red hS ix0 = 1#1) (i : s.Idx) : IsReal (a i) := by
  have hi := Host.reduce_andi_all _ _ red hS ix0 e i
  rw [cmpf_apply, broadcastInDim_scalar_apply, constant_apply, inf_word] at hi
  exact isReal_of_abs_lt_top _ hi

/-- The precondition, all ones, gives finiteness of the six float arrays and the range of the domain words. -/
theorem of_pre [Cert.Pre_finite_inputs.Facts]
    (a0 : FVec Ideal S16384x100 .f32) (a1 : FVec Ideal S4000x400 .f32) (a2 : FVec Ideal S2000x400 .f32)
    (a3 : FVec Ideal S100x400 .f32) (a4 : FVec Ideal S4x4000 .f32) (a5 : FVec Ideal S4x2000 .f32) (a6 : IVec S16384 32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, 0 ≤ (a6 i).toInt ∧ (a6 i).toInt < 4) := by
  have h0 := congrFun h ix0
  dsimp only [fn, fn_part1, fn_part2, andi] at h0
  simp only [IntOp.andi_eq_one] at h0
  obtain ⟨⟨⟨⟨⟨⟨h1, h2⟩, h3⟩, h4⟩, h5⟩, h6⟩, h7⟩ := h0
  refine ⟨allReal a0 _ _ _ h1, allReal a1 _ _ _ h2, allReal a2 _ _ _ h3, allReal a3 _ _ _ h4, allReal a4 _ _ _ h5,
    allReal a5 _ _ _ h6, ?_⟩
  intro i
  have hi := Host.reduce_andi_all _ _ _ _ ix0 h7 i
  obtain ⟨hge, hlt⟩ := IntOp.andi_eq_one.1 hi
  have hge' : (0#32 : BitVec 32).toInt ≤ (a6 i).toInt := by
    have t := IntOp.cmpi_sge.1 hge
    rw [broadcastInDim_scalar_apply] at t
    exact t
  have hlt' : (a6 i).toInt < (4#32 : BitVec 32).toInt := by
    have t := IntOp.cmpi_slt.1 hlt
    rw [broadcastInDim_scalar_apply] at t
    exact t
  rw [show (0#32 : BitVec 32).toInt = 0 from by decide] at hge'
  rw [show (4#32 : BitVec 32).toInt = 4 from by decide] at hlt'
  exact ⟨hge', hlt'⟩

end Cert.Moe.Pre

end
-- ==== Proof.KernelHost.lean ====
/-
  What the region finds in the arrays the host wrote before it: the two topic matrices β·αᵀ, each split into a high
  half (itself, a change of float format being the identity on the extended reals) and a low half (itself less
  itself), and the domain words laid out as a column.
-/
import proofs.«415379_j53764400611707_3_alg».proof.Proof.Gen.KernelIdeal.Frame
import proofs.«415379_j53764400611707_3_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

open scoped BigOperators

namespace Cert.Moe.Host

open Idealize.ShloMosaic Idealize.ShloMosaic.TcCoe Idealize.SL.Sem Idealize.ShloMosaic.ValueIdx Idealize.ShloMosaic.StableHlo
open Cert.KernelIdeal Cert.KernelIdeal.Gen Cert.Moe

/-! ## Width 4000 -/

theorem lhsA_0 (i : S100x4000.Idx) (q : dot_S100x400_S4000x400_S100x4000_1_1_0_0_n_n.contr.Idx) :
    (dot_S100x400_S4000x400_S100x4000_1_1_0_0_n_n.lhsIdx i q 0).val = (i 0).val := by
  unfold DotDims.lhsIdx
  rw [dif_neg (show ¬(0 : Fin S100x400.rank) ∈ dot_S100x400_S4000x400_S100x4000_1_1_0_0_n_n.lhsBatch by decide), dif_pos (show (0 : Fin S100x400.rank) ∈ dot_S100x400_S4000x400_S100x4000_1_1_0_0_n_n.lhsNonContracting by decide)]
  rfl
theorem lhsA_1 (i : S100x4000.Idx) (q : dot_S100x400_S4000x400_S100x4000_1_1_0_0_n_n.contr.Idx) :
    (dot_S100x400_S4000x400_S100x4000_1_1_0_0_n_n.lhsIdx i q 1).val = (q ⟨0, by decide⟩).val :=
  dot_S100x400_S4000x400_S100x4000_1_1_0_0_n_n.lhsIdx_val_of_single rfl i q
theorem rhsA_0 (i : S100x4000.Idx) (q : dot_S100x400_S4000x400_S100x4000_1_1_0_0_n_n.contr.Idx) :
    (dot_S100x400_S4000x400_S100x4000_1_1_0_0_n_n.rhsIdx i q 0).val = (i 1).val := by
  unfold DotDims.rhsIdx
  rw [dif_neg (show ¬(0 : Fin S4000x400.rank) ∈ dot_S100x400_S4000x400_S100x4000_1_1_0_0_n_n.rhsBatch by decide), dif_pos (show (0 : Fin S4000x400.rank) ∈ dot_S100x400_S4000x400_S100x4000_1_1_0_0_n_n.rhsNonContracting by decide)]
  rfl
theorem rhsA_1 (i : S100x4000.Idx) (q : dot_S100x400_S4000x400_S100x4000_1_1_0_0_n_n.contr.Idx) :
    (dot_S100x400_S4000x400_S100x4000_1_1_0_0_n_n.rhsIdx i q 1).val = (q ⟨0, by decide⟩).val :=
  dot_S100x400_S4000x400_S100x4000_1_1_0_0_n_n.rhsIdx_val_of_single rfl i q

/-- The host's contraction of β with α over the embedding axis, at row `z` and column `k`, is the topic entry. -/
theorem dotA_apply (β : FVec Ideal S100x400 .f32) (α : FVec Ideal S4000x400 .f32) (z : Fin 100) (k : Fin 4000) :
    Host.dotGeneral dot_S100x400_S4000x400_S100x4000_1_1_0_0_n_n none β α (ix2 z k) = topic β α z k := by
  simp only [Host.dotGeneral]
  rw [Ideal.dotGeneral_apply, ← Equiv.sum_comp (contrEquiv1 dot_S100x400_S4000x400_S100x4000_1_1_0_0_n_n 400 rfl rfl).symm]
  unfold topic
  refine Finset.sum_congr rfl fun e _ => ?_
  have hk := contrEquiv1_symm_val dot_S100x400_S4000x400_S100x4000_1_1_0_0_n_n 400 rfl rfl e
  have el : dot_S100x400_S4000x400_S100x4000_1_1_0_0_n_n.lhsIdx (ix2 z k) ((contrEquiv1 dot_S100x400_S4000x400_S100x4000_1_1_0_0_n_n 400 rfl rfl).symm e) = ix2 z e := funext fun a => Fin.ext (by
    match a with
    | ⟨0, _⟩ => exact lhsA_0 _ _
    | ⟨1, _⟩ => exact (lhsA_1 _ _).trans hk)
  have er : dot_S100x400_S4000x400_S100x4000_1_1_0_0_n_n.rhsIdx (ix2 z k) ((contrEquiv1 dot_S100x400_S4000x400_S100x4000_1_1_0_0_n_n 400 rfl rfl).symm e) = ix2 k e := funext fun a => Fin.ext (by
    match a with
    | ⟨0, _⟩ => exact rhsA_0 _ _
    | ⟨1, _⟩ => exact (rhsA_1 _ _).trans hk)
  rw [el, er]

/-! ## Width 2000 -/

theorem lhsB_0 (i : S100x2000.Idx) (q : dot_S100x400_S2000x400_S100x2000_1_1_0_0_n_n.contr.Idx) :
    (dot_S100x400_S2000x400_S100x2000_1_1_0_0_n_n.lhsIdx i q 0).val = (i 0).val := by
  unfold DotDims.lhsIdx
  rw [dif_neg (show ¬(0 : Fin S100x400.rank) ∈ dot_S100x400_S2000x400_S100x2000_1_1_0_0_n_n.lhsBatch by decide), dif_pos (show (0 : Fin S100x400.rank) ∈ dot_S100x400_S2000x400_S100x2000_1_1_0_0_n_n.lhsNonContracting by decide)]
  rfl
theorem lhsB_1 (i : S100x2000.Idx) (q : dot_S100x400_S2000x400_S100x2000_1_1_0_0_n_n.contr.Idx) :
    (dot_S100x400_S2000x400_S100x2000_1_1_0_0_n_n.lhsIdx i q 1).val = (q ⟨0, by decide⟩).val :=
  dot_S100x400_S2000x400_S100x2000_1_1_0_0_n_n.lhsIdx_val_of_single rfl i q
theorem rhsB_0 (i : S100x2000.Idx) (q : dot_S100x400_S2000x400_S100x2000_1_1_0_0_n_n.contr.Idx) :
    (dot_S100x400_S2000x400_S100x2000_1_1_0_0_n_n.rhsIdx i q 0).val = (i 1).val := by
  unfold DotDims.rhsIdx
  rw [dif_neg (show ¬(0 : Fin S2000x400.rank) ∈ dot_S100x400_S2000x400_S100x2000_1_1_0_0_n_n.rhsBatch by decide), dif_pos (show (0 : Fin S2000x400.rank) ∈ dot_S100x400_S2000x400_S100x2000_1_1_0_0_n_n.rhsNonContracting by decide)]
  rfl
theorem rhsB_1 (i : S100x2000.Idx) (q : dot_S100x400_S2000x400_S100x2000_1_1_0_0_n_n.contr.Idx) :
    (dot_S100x400_S2000x400_S100x2000_1_1_0_0_n_n.rhsIdx i q 1).val = (q ⟨0, by decide⟩).val :=
  dot_S100x400_S2000x400_S100x2000_1_1_0_0_n_n.rhsIdx_val_of_single rfl i q

/-- The host's contraction of β with α over the embedding axis, at row `z` and column `k`, is the topic entry. -/
theorem dotB_apply (β : FVec Ideal S100x400 .f32) (α : FVec Ideal S2000x400 .f32) (z : Fin 100) (k : Fin 2000) :
    Host.dotGeneral dot_S100x400_S2000x400_S100x2000_1_1_0_0_n_n none β α (ix2 z k) = topic β α z k := by
  simp only [Host.dotGeneral]
  rw [Ideal.dotGeneral_apply, ← Equiv.sum_comp (contrEquiv1 dot_S100x400_S2000x400_S100x2000_1_1_0_0_n_n 400 rfl rfl).symm]
  unfold topic
  refine Finset.sum_congr rfl fun e _ => ?_
  have hk := contrEquiv1_symm_val dot_S100x400_S2000x400_S100x2000_1_1_0_0_n_n 400 rfl rfl e
  have el : dot_S100x400_S2000x400_S100x2000_1_1_0_0_n_n.lhsIdx (ix2 z k) ((contrEquiv1 dot_S100x400_S2000x400_S100x2000_1_1_0_0_n_n 400 rfl rfl).symm e) = ix2 z e := funext fun a => Fin.ext (by
    match a with
    | ⟨0, _⟩ => exact lhsB_0 _ _
    | ⟨1, _⟩ => exact (lhsB_1 _ _).trans hk)
  have er : dot_S100x400_S2000x400_S100x2000_1_1_0_0_n_n.rhsIdx (ix2 z k) ((contrEquiv1 dot_S100x400_S2000x400_S100x2000_1_1_0_0_n_n 400 rfl rfl).symm e) = ix2 k e := funext fun a => Fin.ext (by
    match a with
    | ⟨0, _⟩ => exact rhsB_0 _ _
    | ⟨1, _⟩ => exact (rhsB_1 _ _).trans hk)
  rw [el, er]

/-! ## The arrays at region entry -/

variable (m : (ℓ : Loc nD τ sig) → Buf (Elt Ideal) ℓ)

/-- β as launched. -/
abbrev betaArr (c : Dev nD) : FVec Ideal S100x400 .f32 := m ((c : Thread nD τ).loc main_arg3)
/-- α of the first head as launched. -/
abbrev alphaA (c : Dev nD) : FVec Ideal S4000x400 .f32 := m ((c : Thread nD τ).loc main_arg1)
/-- α of the second head as launched. -/
abbrev alphaB (c : Dev nD) : FVec Ideal S2000x400 .f32 := m ((c : Thread nD τ).loc main_arg2)

/-- The high half of the split topic matrix of width 4000, as the region finds it: the contraction itself, a change of
    format being the identity. -/
theorem V_main_v2 (c : Dev nD) :
    @Eq (FVec Ideal S100x4000 .bf16) (V m c main_v2)
      (truncf (F := Ideal) .bf16 (Host.dotGeneral (F := Ideal) dot_S100x400_S4000x400_S100x4000_1_1_0_0_n_n none (betaArr m c) (alphaA m c)) bitsLt_bf16_f32) := by
  dsimp only [V, hostOps0]; after_results

theorem V_main_v2_apply (c : Dev nD) (z : Fin 100) (k : Fin 4000) :
    V m c main_v2 (ix2 z k) = topic (betaArr m c) (alphaA m c) z k := by
  rw [V_main_v2]
  exact dotA_apply _ _ z k

/-- The low half: the contraction less its own high half. -/
theorem V_main_v5 (c : Dev nD) :
    @Eq (FVec Ideal S100x4000 .bf16) (V m c main_v5)
      (truncf (F := Ideal) .bf16 (subf (Host.dotGeneral (F := Ideal) dot_S100x400_S4000x400_S100x4000_1_1_0_0_n_n none (betaArr m c) (alphaA m c))
          (extf (F := Ideal) .f32 (truncf (F := Ideal) .bf16 (Host.dotGeneral (F := Ideal) dot_S100x400_S4000x400_S100x4000_1_1_0_0_n_n none (betaArr m c) (alphaA m c)) bitsLt_bf16_f32) bitsLt_bf16_f32)) bitsLt_bf16_f32) := by
  dsimp only [V, hostOps0]; after_results

theorem V_main_v5_apply (c : Dev nD) (z : Fin 100) (k : Fin 4000) :
    V m c main_v5 (ix2 z k)
      = topic (betaArr m c) (alphaA m c) z k
        - topic (betaArr m c) (alphaA m c) z k := by
  rw [V_main_v5]
  show Host.dotGeneral (F := Ideal) dot_S100x400_S4000x400_S100x4000_1_1_0_0_n_n none (betaArr m c) (alphaA m c) (ix2 z k) - Host.dotGeneral (F := Ideal) dot_S100x400_S4000x400_S100x4000_1_1_0_0_n_n none (betaArr m c) (alphaA m c) (ix2 z k) = _
  rw [dotA_apply]

/-- The high half of the split topic matrix of width 2000, as the region finds it: the contraction itself, a change of
    format being the identity. -/
theorem V_main_v6 (c : Dev nD) :
    @Eq (FVec Ideal S100x2000 .bf16) (V m c main_v6)
      (truncf (F := Ideal) .bf16 (Host.dotGeneral (F := Ideal) dot_S100x400_S2000x400_S100x2000_1_1_0_0_n_n none (betaArr m c) (alphaB m c)) bitsLt_bf16_f32) := by
  dsimp only [V, hostOps0]; after_results

theorem V_main_v6_apply (c : Dev nD) (z : Fin 100) (k : Fin 2000) :
    V m c main_v6 (ix2 z k) = topic (betaArr m c) (alphaB m c) z k := by
  rw [V_main_v6]
  exact dotB_apply _ _ z k

/-- The low half: the contraction less its own high half. -/
theorem V_main_v9 (c : Dev nD) :
    @Eq (FVec Ideal S100x2000 .bf16) (V m c main_v9)
      (truncf (F := Ideal) .bf16 (subf (Host.dotGeneral (F := Ideal) dot_S100x400_S2000x400_S100x2000_1_1_0_0_n_n none (betaArr m c) (alphaB m c))
          (extf (F := Ideal) .f32 (truncf (F := Ideal) .bf16 (Host.dotGeneral (F := Ideal) dot_S100x400_S2000x400_S100x2000_1_1_0_0_n_n none (betaArr m c) (alphaB m c)) bitsLt_bf16_f32) bitsLt_bf16_f32)) bitsLt_bf16_f32) := by
  dsimp only [V, hostOps0]; after_results

theorem V_main_v9_apply (c : Dev nD) (z : Fin 100) (k : Fin 2000) :
    V m c main_v9 (ix2 z k)
      = topic (betaArr m c) (alphaB m c) z k
        - topic (betaArr m c) (alphaB m c) z k := by
  rw [V_main_v9]
  show Host.dotGeneral (F := Ideal) dot_S100x400_S2000x400_S100x2000_1_1_0_0_n_n none (betaArr m c) (alphaB m c) (ix2 z k) - Host.dotGeneral (F := Ideal) dot_S100x400_S2000x400_S100x2000_1_1_0_0_n_n none (betaArr m c) (alphaB m c) (ix2 z k) = _
  rw [dotB_apply]

/-- The domain words as a column: entry (n, 0) is word n. -/
theorem V_main_v10 (c : Dev nD) :
    (V m c main_v10 : S16384x1.Idx → BitVec 32)
      = shapeCast S16384x1 (m ((c : Thread nD τ).loc main_arg6)) shapeCasts_S16384_S16384x1 := by
  dsimp only [V, hostOps0]; after_results
  rfl

end Cert.Moe.Host

end
-- ==== Proof.Payload.lean ====
/-
  The kernel body's arithmetic, read at one entry of the block: each stored value is the log-softmax of a row of
  logits, a logit being three partial products of the split operands plus the one-hot product with the bias table.
-/
import proofs.«415379_j53764400611707_3_alg».proof.Proof.Gen.KernelIdeal.Skeleton
import proofs.«415379_j53764400611707_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Moe.Pay

open Idealize.ShloMosaic Idealize.ShloMosaic.ValueIdx Cert.KernelIdeal Cert.KernelIdeal.Gen Cert.Moe

/-! ## Layout and reduction steps read at a row and a column -/

/-- A vector of `a` entries cast to one column `[a, 1]`, read at `(i, u)`, is entry `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast over `b` columns reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `p` with column `k` put back is `(p, k)`. -/
private theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The maximum along the columns, read at row `p`: the fold of `max` over the row, from the accumulator's value. -/
private theorem rowMax_apply {a b : ℕ} (x : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ) (p : Fin a) :
    multiReduction .maximumf [1] ⟨1, ![a]⟩ x 0xFF800000#32 h hφ hacc (ix1 p) = rowMax fun k : Fin b => x (ix2 p k) := by
  refine (Ideal.multiReduction_maximumf_single x _ h hφ hacc (ix1 p)).trans ?_
  have hf : (x ∘ h.lift (ix1 p)) = fun k : Fin b => x (ix2 p k) := funext fun k => congrArg x (lift_row h p k)
  exact congrArg (fun f => Finset.fold max (Ideal.ofBits .f32 0xFF800000#32) f (Finset.univ : Finset (Fin b))) hf

/-- The sum along the columns, read at row `p`: the sum over the row. -/
private theorem rowSum_apply {a b : ℕ} (x : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ) (p : Fin a) :
    multiReduction .add [1] ⟨1, ![a]⟩ x 0x00000000#32 h hφ hacc (ix1 p) = ∑ k : Fin b, x (ix2 p k) := by
  refine (Ideal.multiReduction_add_single x _ h hφ hacc (ix1 p)).trans ?_
  exact Finset.sum_congr rfl fun k _ => congrArg x (lift_row h p k)

/-- The row softmax's logarithm as the body computes it — the row less its maximum, less the logarithm of the
    sum of the exponentials of that — read at `(p, q)`: the specification's `logSoftmax` of row `p` at `q`. -/
private theorem logSoftmax_apply {a b : ℕ} (x : FVec Ideal ⟨2, ![a, b]⟩ .f32)
    (h : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf x (broadcastTo ⟨2, ![a, b]⟩ (shapeCast ⟨2, ![a, 1]⟩ (multiReduction .maximumf [1] ⟨1, ![a]⟩ x 0xFF800000#32 h hφ hmax) hc) hb))
        (broadcastTo ⟨2, ![a, b]⟩
          (log (shapeCast ⟨2, ![a, 1]⟩
            (multiReduction .add [1] ⟨1, ![a]⟩
              (exp (subf x (broadcastTo ⟨2, ![a, b]⟩ (shapeCast ⟨2, ![a, 1]⟩ (multiReduction .maximumf [1] ⟨1, ![a]⟩ x 0xFF800000#32 h hφ hmax) hc) hb)))
              0x00000000#32 h hφ hadd) hc)) hb) (ix2 p q)
      = logSoftmax (fun k : Fin b => x (ix2 p k)) q := by
  have hm : ∀ c : Fin b,
      (broadcastTo ⟨2, ![a, b]⟩ (shapeCast ⟨2, ![a, 1]⟩ (multiReduction .maximumf [1] ⟨1, ![a]⟩ x 0xFF800000#32 h hφ hmax) hc) hb : FVec Ideal ⟨2, ![a, b]⟩ .f32) (ix2 p c)
        = rowMax fun k : Fin b => x (ix2 p k) := fun c =>
    (broadcastTo_a1_ab_apply _ hb p c).trans ((shapeCast_a_a1_apply _ hc p 0).trans (rowMax_apply x h hφ hmax p))
  rw [subf_apply, subf_apply, hm q, broadcastTo_a1_ab_apply _ hb p q]
  show _ - Ideal.log (shapeCast ⟨2, ![a, 1]⟩ _ hc (ix2 p (0 : Fin 1))) = _
  rw [shapeCast_a_a1_apply _ hc p 0, rowSum_apply _ h hφ hadd p]
  unfold logSoftmax
  refine congrArg (fun s => (x (ix2 p q) - rowMax fun k : Fin b => x (ix2 p k)) - Ideal.log s) ?_
  refine Finset.sum_congr rfl fun k _ => ?_
  show Ideal.exp (subf x _ (ix2 p k)) = _
  rw [subf_apply, hm k]

/-! ## The four products read at a row and a column -/

private theorem lhs_w4000_0 (i : S1024x4000.Idx) (c : dot_S1024x100_S100x4000_S1024x4000_1_0_0_1_n_n.contr.Idx) :
    (dot_S1024x100_S100x4000_S1024x4000_1_0_0_1_n_n.lhsIdx i c 0).val = (i 0).val := by
  unfold DotDims.lhsIdx
  rw [dif_neg (show ¬(0 : Fin S1024x100.rank) ∈ dot_S1024x100_S100x4000_S1024x4000_1_0_0_1_n_n.lhsBatch by decide), dif_pos (show (0 : Fin S1024x100.rank) ∈ dot_S1024x100_S100x4000_S1024x4000_1_0_0_1_n_n.lhsNonContracting by decide)]
  rfl
private theorem lhs_w4000_1 (i : S1024x4000.Idx) (c : dot_S1024x100_S100x4000_S1024x4000_1_0_0_1_n_n.contr.Idx) :
    (dot_S1024x100_S100x4000_S1024x4000_1_0_0_1_n_n.lhsIdx i c 1).val = (c ⟨0, by decide⟩).val :=
  dot_S1024x100_S100x4000_S1024x4000_1_0_0_1_n_n.lhsIdx_val_of_single rfl i c
private theorem rhs_w4000_0 (i : S1024x4000.Idx) (c : dot_S1024x100_S100x4000_S1024x4000_1_0_0_1_n_n.contr.Idx) :
    (dot_S1024x100_S100x4000_S1024x4000_1_0_0_1_n_n.rhsIdx i c 0).val = (c ⟨0, by decide⟩).val :=
  dot_S1024x100_S100x4000_S1024x4000_1_0_0_1_n_n.rhsIdx_val_of_single rfl i c
private theorem rhs_w4000_1 (i : S1024x4000.Idx) (c : dot_S1024x100_S100x4000_S1024x4000_1_0_0_1_n_n.contr.Idx) :
    (dot_S1024x100_S100x4000_S1024x4000_1_0_0_1_n_n.rhsIdx i c 1).val = (i 1).val := by
  unfold DotDims.rhsIdx
  rw [dif_neg (show ¬(1 : Fin S100x4000.rank) ∈ dot_S1024x100_S100x4000_S1024x4000_1_0_0_1_n_n.rhsBatch by decide), dif_pos (show (1 : Fin S100x4000.rank) ∈ dot_S1024x100_S100x4000_S1024x4000_1_0_0_1_n_n.rhsNonContracting by decide)]
  rfl
/-- The product of a `[1024, 100]` block and a `[100, 4000]` table into the zero block, read at `(p, q)`: row `p` of the left operand against column `q` of the right. -/
private theorem matmul_w4000_apply {φ₁ φ₂ : FTy} (x : FVec Ideal S1024x100 φ₁) (y : FVec Ideal S100x4000 φ₂) (p : Fin 1024) (q : Fin 4000) :
    matmul dot_S1024x100_S100x4000_S1024x4000_1_0_0_1_n_n none x y (constant S1024x4000 .f32 0x00000000#32) (ix2 p q)
      = ∑ z : Fin 100, x (ix2 p z) * y (ix2 z q) := by
  refine (Ideal.matmul_constant_zero_apply dot_S1024x100_S100x4000_S1024x4000_1_0_0_1_n_n none x y (ix2 p q)).trans ?_
  rw [← Equiv.sum_comp (ValueIdx.contrEquiv1 dot_S1024x100_S100x4000_S1024x4000_1_0_0_1_n_n 100 rfl rfl).symm]
  refine Finset.sum_congr rfl fun k _ => ?_
  have hk := ValueIdx.contrEquiv1_symm_val dot_S1024x100_S100x4000_S1024x4000_1_0_0_1_n_n 100 rfl rfl k
  have el : dot_S1024x100_S100x4000_S1024x4000_1_0_0_1_n_n.lhsIdx (ix2 p q) ((ValueIdx.contrEquiv1 dot_S1024x100_S100x4000_S1024x4000_1_0_0_1_n_n 100 rfl rfl).symm k) = ix2 p k := funext fun a => Fin.ext (by
    match a with
    | ⟨0, _⟩ => exact lhs_w4000_0 _ _
    | ⟨1, _⟩ => exact (lhs_w4000_1 _ _).trans hk)
  have er : dot_S1024x100_S100x4000_S1024x4000_1_0_0_1_n_n.rhsIdx (ix2 p q) ((ValueIdx.contrEquiv1 dot_S1024x100_S100x4000_S1024x4000_1_0_0_1_n_n 100 rfl rfl).symm k) = ix2 k q := funext fun a => Fin.ext (by
    match a with
    | ⟨0, _⟩ => exact (rhs_w4000_0 _ _).trans hk
    | ⟨1, _⟩ => exact rhs_w4000_1 _ _)
  rw [el, er]

private theorem lhs_b4000_0 (i : S1024x4000.Idx) (c : dot_S1024x4_S4x4000_S1024x4000_1_0_0_1_n_n.contr.Idx) :
    (dot_S1024x4_S4x4000_S1024x4000_1_0_0_1_n_n.lhsIdx i c 0).val = (i 0).val := by
  unfold DotDims.lhsIdx
  rw [dif_neg (show ¬(0 : Fin S1024x4.rank) ∈ dot_S1024x4_S4x4000_S1024x4000_1_0_0_1_n_n.lhsBatch by decide), dif_pos (show (0 : Fin S1024x4.rank) ∈ dot_S1024x4_S4x4000_S1024x4000_1_0_0_1_n_n.lhsNonContracting by decide)]
  rfl
private theorem lhs_b4000_1 (i : S1024x4000.Idx) (c : dot_S1024x4_S4x4000_S1024x4000_1_0_0_1_n_n.contr.Idx) :
    (dot_S1024x4_S4x4000_S1024x4000_1_0_0_1_n_n.lhsIdx i c 1).val = (c ⟨0, by decide⟩).val :=
  dot_S1024x4_S4x4000_S1024x4000_1_0_0_1_n_n.lhsIdx_val_of_single rfl i c
private theorem rhs_b4000_0 (i : S1024x4000.Idx) (c : dot_S1024x4_S4x4000_S1024x4000_1_0_0_1_n_n.contr.Idx) :
    (dot_S1024x4_S4x4000_S1024x4000_1_0_0_1_n_n.rhsIdx i c 0).val = (c ⟨0, by decide⟩).val :=
  dot_S1024x4_S4x4000_S1024x4000_1_0_0_1_n_n.rhsIdx_val_of_single rfl i c
private theorem rhs_b4000_1 (i : S1024x4000.Idx) (c : dot_S1024x4_S4x4000_S1024x4000_1_0_0_1_n_n.contr.Idx) :
    (dot_S1024x4_S4x4000_S1024x4000_1_0_0_1_n_n.rhsIdx i c 1).val = (i 1).val := by
  unfold DotDims.rhsIdx
  rw [dif_neg (show ¬(1 : Fin S4x4000.rank) ∈ dot_S1024x4_S4x4000_S1024x4000_1_0_0_1_n_n.rhsBatch by decide), dif_pos (show (1 : Fin S4x4000.rank) ∈ dot_S1024x4_S4x4000_S1024x4000_1_0_0_1_n_n.rhsNonContracting by decide)]
  rfl
/-- The product of a `[1024, 4]` block and a `[4, 4000]` table into the zero block, read at `(p, q)`: row `p` of the left operand against column `q` of the right. -/
private theorem matmul_b4000_apply {φ₁ φ₂ : FTy} (x : FVec Ideal S1024x4 φ₁) (y : FVec Ideal S4x4000 φ₂) (p : Fin 1024) (q : Fin 4000) :
    matmul dot_S1024x4_S4x4000_S1024x4000_1_0_0_1_n_n none x y (constant S1024x4000 .f32 0x00000000#32) (ix2 p q)
      = ∑ z : Fin 4, x (ix2 p z) * y (ix2 z q) := by
  refine (Ideal.matmul_constant_zero_apply dot_S1024x4_S4x4000_S1024x4000_1_0_0_1_n_n none x y (ix2 p q)).trans ?_
  rw [← Equiv.sum_comp (ValueIdx.contrEquiv1 dot_S1024x4_S4x4000_S1024x4000_1_0_0_1_n_n 4 rfl rfl).symm]
  refine Finset.sum_congr rfl fun k _ => ?_
  have hk := ValueIdx.contrEquiv1_symm_val dot_S1024x4_S4x4000_S1024x4000_1_0_0_1_n_n 4 rfl rfl k
  have el : dot_S1024x4_S4x4000_S1024x4000_1_0_0_1_n_n.lhsIdx (ix2 p q) ((ValueIdx.contrEquiv1 dot_S1024x4_S4x4000_S1024x4000_1_0_0_1_n_n 4 rfl rfl).symm k) = ix2 p k := funext fun a => Fin.ext (by
    match a with
    | ⟨0, _⟩ => exact lhs_b4000_0 _ _
    | ⟨1, _⟩ => exact (lhs_b4000_1 _ _).trans hk)
  have er : dot_S1024x4_S4x4000_S1024x4000_1_0_0_1_n_n.rhsIdx (ix2 p q) ((ValueIdx.contrEquiv1 dot_S1024x4_S4x4000_S1024x4000_1_0_0_1_n_n 4 rfl rfl).symm k) = ix2 k q := funext fun a => Fin.ext (by
    match a with
    | ⟨0, _⟩ => exact (rhs_b4000_0 _ _).trans hk
    | ⟨1, _⟩ => exact rhs_b4000_1 _ _)
  rw [el, er]

private theorem lhs_w2000_0 (i : S1024x2000.Idx) (c : dot_S1024x100_S100x2000_S1024x2000_1_0_0_1_n_n.contr.Idx) :
    (dot_S1024x100_S100x2000_S1024x2000_1_0_0_1_n_n.lhsIdx i c 0).val = (i 0).val := by
  unfold DotDims.lhsIdx
  rw [dif_neg (show ¬(0 : Fin S1024x100.rank) ∈ dot_S1024x100_S100x2000_S1024x2000_1_0_0_1_n_n.lhsBatch by decide), dif_pos (show (0 : Fin S1024x100.rank) ∈ dot_S1024x100_S100x2000_S1024x2000_1_0_0_1_n_n.lhsNonContracting by decide)]
  rfl
private theorem lhs_w2000_1 (i : S1024x2000.Idx) (c : dot_S1024x100_S100x2000_S1024x2000_1_0_0_1_n_n.contr.Idx) :
    (dot_S1024x100_S100x2000_S1024x2000_1_0_0_1_n_n.lhsIdx i c 1).val = (c ⟨0, by decide⟩).val :=
  dot_S1024x100_S100x2000_S1024x2000_1_0_0_1_n_n.lhsIdx_val_of_single rfl i c
private theorem rhs_w2000_0 (i : S1024x2000.Idx) (c : dot_S1024x100_S100x2000_S1024x2000_1_0_0_1_n_n.contr.Idx) :
    (dot_S1024x100_S100x2000_S1024x2000_1_0_0_1_n_n.rhsIdx i c 0).val = (c ⟨0, by decide⟩).val :=
  dot_S1024x100_S100x2000_S1024x2000_1_0_0_1_n_n.rhsIdx_val_of_single rfl i c
private theorem rhs_w2000_1 (i : S1024x2000.Idx) (c : dot_S1024x100_S100x2000_S1024x2000_1_0_0_1_n_n.contr.Idx) :
    (dot_S1024x100_S100x2000_S1024x2000_1_0_0_1_n_n.rhsIdx i c 1).val = (i 1).val := by
  unfold DotDims.rhsIdx
  rw [dif_neg (show ¬(1 : Fin S100x2000.rank) ∈ dot_S1024x100_S100x2000_S1024x2000_1_0_0_1_n_n.rhsBatch by decide), dif_pos (show (1 : Fin S100x2000.rank) ∈ dot_S1024x100_S100x2000_S1024x2000_1_0_0_1_n_n.rhsNonContracting by decide)]
  rfl
/-- The product of a `[1024, 100]` block and a `[100, 2000]` table into the zero block, read at `(p, q)`: row `p` of the left operand against column `q` of the right. -/
private theorem matmul_w2000_apply {φ₁ φ₂ : FTy} (x : FVec Ideal S1024x100 φ₁) (y : FVec Ideal S100x2000 φ₂) (p : Fin 1024) (q : Fin 2000) :
    matmul dot_S1024x100_S100x2000_S1024x2000_1_0_0_1_n_n none x y (constant S1024x2000 .f32 0x00000000#32) (ix2 p q)
      = ∑ z : Fin 100, x (ix2 p z) * y (ix2 z q) := by
  refine (Ideal.matmul_constant_zero_apply dot_S1024x100_S100x2000_S1024x2000_1_0_0_1_n_n none x y (ix2 p q)).trans ?_
  rw [← Equiv.sum_comp (ValueIdx.contrEquiv1 dot_S1024x100_S100x2000_S1024x2000_1_0_0_1_n_n 100 rfl rfl).symm]
  refine Finset.sum_congr rfl fun k _ => ?_
  have hk := ValueIdx.contrEquiv1_symm_val dot_S1024x100_S100x2000_S1024x2000_1_0_0_1_n_n 100 rfl rfl k
  have el : dot_S1024x100_S100x2000_S1024x2000_1_0_0_1_n_n.lhsIdx (ix2 p q) ((ValueIdx.contrEquiv1 dot_S1024x100_S100x2000_S1024x2000_1_0_0_1_n_n 100 rfl rfl).symm k) = ix2 p k := funext fun a => Fin.ext (by
    match a with
    | ⟨0, _⟩ => exact lhs_w2000_0 _ _
    | ⟨1, _⟩ => exact (lhs_w2000_1 _ _).trans hk)
  have er : dot_S1024x100_S100x2000_S1024x2000_1_0_0_1_n_n.rhsIdx (ix2 p q) ((ValueIdx.contrEquiv1 dot_S1024x100_S100x2000_S1024x2000_1_0_0_1_n_n 100 rfl rfl).symm k) = ix2 k q := funext fun a => Fin.ext (by
    match a with
    | ⟨0, _⟩ => exact (rhs_w2000_0 _ _).trans hk
    | ⟨1, _⟩ => exact rhs_w2000_1 _ _)
  rw [el, er]

private theorem lhs_b2000_0 (i : S1024x2000.Idx) (c : dot_S1024x4_S4x2000_S1024x2000_1_0_0_1_n_n.contr.Idx) :
    (dot_S1024x4_S4x2000_S1024x2000_1_0_0_1_n_n.lhsIdx i c 0).val = (i 0).val := by
  unfold DotDims.lhsIdx
  rw [dif_neg (show ¬(0 : Fin S1024x4.rank) ∈ dot_S1024x4_S4x2000_S1024x2000_1_0_0_1_n_n.lhsBatch by decide), dif_pos (show (0 : Fin S1024x4.rank) ∈ dot_S1024x4_S4x2000_S1024x2000_1_0_0_1_n_n.lhsNonContracting by decide)]
  rfl
private theorem lhs_b2000_1 (i : S1024x2000.Idx) (c : dot_S1024x4_S4x2000_S1024x2000_1_0_0_1_n_n.contr.Idx) :
    (dot_S1024x4_S4x2000_S1024x2000_1_0_0_1_n_n.lhsIdx i c 1).val = (c ⟨0, by decide⟩).val :=
  dot_S1024x4_S4x2000_S1024x2000_1_0_0_1_n_n.lhsIdx_val_of_single rfl i c
private theorem rhs_b2000_0 (i : S1024x2000.Idx) (c : dot_S1024x4_S4x2000_S1024x2000_1_0_0_1_n_n.contr.Idx) :
    (dot_S1024x4_S4x2000_S1024x2000_1_0_0_1_n_n.rhsIdx i c 0).val = (c ⟨0, by decide⟩).val :=
  dot_S1024x4_S4x2000_S1024x2000_1_0_0_1_n_n.rhsIdx_val_of_single rfl i c
private theorem rhs_b2000_1 (i : S1024x2000.Idx) (c : dot_S1024x4_S4x2000_S1024x2000_1_0_0_1_n_n.contr.Idx) :
    (dot_S1024x4_S4x2000_S1024x2000_1_0_0_1_n_n.rhsIdx i c 1).val = (i 1).val := by
  unfold DotDims.rhsIdx
  rw [dif_neg (show ¬(1 : Fin S4x2000.rank) ∈ dot_S1024x4_S4x2000_S1024x2000_1_0_0_1_n_n.rhsBatch by decide), dif_pos (show (1 : Fin S4x2000.rank) ∈ dot_S1024x4_S4x2000_S1024x2000_1_0_0_1_n_n.rhsNonContracting by decide)]
  rfl
/-- The product of a `[1024, 4]` block and a `[4, 2000]` table into the zero block, read at `(p, q)`: row `p` of the left operand against column `q` of the right. -/
private theorem matmul_b2000_apply {φ₁ φ₂ : FTy} (x : FVec Ideal S1024x4 φ₁) (y : FVec Ideal S4x2000 φ₂) (p : Fin 1024) (q : Fin 2000) :
    matmul dot_S1024x4_S4x2000_S1024x2000_1_0_0_1_n_n none x y (constant S1024x2000 .f32 0x00000000#32) (ix2 p q)
      = ∑ z : Fin 4, x (ix2 p z) * y (ix2 z q) := by
  refine (Ideal.matmul_constant_zero_apply dot_S1024x4_S4x2000_S1024x2000_1_0_0_1_n_n none x y (ix2 p q)).trans ?_
  rw [← Equiv.sum_comp (ValueIdx.contrEquiv1 dot_S1024x4_S4x2000_S1024x2000_1_0_0_1_n_n 4 rfl rfl).symm]
  refine Finset.sum_congr rfl fun k _ => ?_
  have hk := ValueIdx.contrEquiv1_symm_val dot_S1024x4_S4x2000_S1024x2000_1_0_0_1_n_n 4 rfl rfl k
  have el : dot_S1024x4_S4x2000_S1024x2000_1_0_0_1_n_n.lhsIdx (ix2 p q) ((ValueIdx.contrEquiv1 dot_S1024x4_S4x2000_S1024x2000_1_0_0_1_n_n 4 rfl rfl).symm k) = ix2 p k := funext fun a => Fin.ext (by
    match a with
    | ⟨0, _⟩ => exact lhs_b2000_0 _ _
    | ⟨1, _⟩ => exact (lhs_b2000_1 _ _).trans hk)
  have er : dot_S1024x4_S4x2000_S1024x2000_1_0_0_1_n_n.rhsIdx (ix2 p q) ((ValueIdx.contrEquiv1 dot_S1024x4_S4x2000_S1024x2000_1_0_0_1_n_n 4 rfl rfl).symm k) = ix2 k q := funext fun a => Fin.ext (by
    match a with
    | ⟨0, _⟩ => exact (rhs_b2000_0 _ _).trans hk
    | ⟨1, _⟩ => exact rhs_b2000_1 _ _)
  rw [el, er]

/-- The high half of the split of θ's block: a change of float format, the identity on the extended reals. -/
theorem pay3_eq (v0 : Vec Ideal S1024x100 .f32) : k0_pay3 (F := Ideal) v0 = v0 := by
  rfl

/-- The low half: the block less its high half, entry by entry. -/
theorem pay4_apply (v0 : Vec Ideal S1024x100 .f32) (p : Fin 1024) (z : Fin 100) :
    k0_pay4 (F := Ideal) v0 (ix2 p z) = v0 (ix2 p z) - v0 (ix2 p z) := by
  rfl

/-- The one-hot block: lane `r` of row `p` is one exactly where the lane number is the row's domain word. -/
theorem pay2_apply (v1 : Vec Ideal S1024x1 .i32) (p : Fin 1024) (r : Fin 4) :
    k0_pay2 (F := Ideal) v1 (ix2 p r) = onehot (v1 (ix2 p (0 : Fin 1))) r := by
  have e1 : ∀ (hc : S1024x1.ShapeCasts S1024x1) (hb : S1024x1.Broadcasts S1024x4),
      (broadcastTo S1024x4 (shapeCast S1024x1 v1 hc) hb : IVec S1024x4 32) (ix2 p r) = v1 (ix2 p (0 : Fin 1)) := fun hc hb => by
    rw [shapeCast_self]
    exact broadcastTo_a1_ab_apply v1 hb p r
  have e2 : ∀ hi : S1024x4.Iotas .tc 32 [1], iota .tc S1024x4 32 [1] hi (ix2 p r) = BitVec.ofNat 32 r.val := fun hi =>
    iota_single_apply .tc S1024x4 32 1 hi (ix2 p r)
  unfold k0_pay2
  show ((((IntOp.cmpi .eq (iota .tc S1024x4 32 [1] _ (ix2 p r)) (broadcastTo S1024x4 (shapeCast S1024x1 v1 _) _ (ix2 p r))).setWidth 32).toInt : ℝ) : EReal) = _
  rw [e1, e2]
  unfold onehot
  by_cases hw : BitVec.ofNat 32 r.val = v1 (ix2 p (0 : Fin 1))
  · have hc : IntOp.cmpi .eq (BitVec.ofNat 32 r.val) (v1 (ix2 p (0 : Fin 1))) = 1#1 := by simp [IntOp.cmpi, hw]
    rw [if_pos hw, hc]
    have : ((1#1 : BitVec 1).setWidth 32).toInt = 1 := by decide
    rw [this]; norm_num
  · have hc : IntOp.cmpi .eq (BitVec.ofNat 32 r.val) (v1 (ix2 p (0 : Fin 1))) = 0#1 := by
      simp [IntOp.cmpi, beq_eq_false_iff_ne.2 hw]
    rw [if_neg hw, hc]
    have : ((0#1 : BitVec 1).setWidth 32).toInt = 0 := by decide
    rw [this]; norm_num

/-- The second head's stored value at row `p`, column `q` of the block. -/
theorem pay1_apply (v4 : Vec Ideal S4x2000 .f32) (v9 : FVec Ideal S1024x4 .f32) (v10 v13 : FVec Ideal S1024x100 .bf16)
    (v36 v38 : Vec Ideal S100x2000 .bf16) (p : Fin 1024) (q : Fin 2000) :
    k0_pay1 (F := Ideal) v4 v9 v10 v13 v36 v38 (ix2 p q)
      = logSoftmax (fun k : Fin 2000 =>
          (((∑ z : Fin 100, v10 (ix2 p z) * v36 (ix2 z k)) + (∑ z : Fin 100, v10 (ix2 p z) * v38 (ix2 z k)))
            + (∑ z : Fin 100, v13 (ix2 p z) * v36 (ix2 z k)))
            + ∑ r : Fin 4, v9 (ix2 p r) * v4 (ix2 r k)) q := by
  unfold k0_pay1
  refine (logSoftmax_apply (a := 1024) (b := 2000) _ _ _ _ _ _ _ p q).trans ?_
  refine congrArg (fun row : Fin 2000 → EReal => logSoftmax row q) (funext fun k => ?_)
  rw [addf_apply, addf_apply, addf_apply, matmul_w2000_apply, matmul_w2000_apply, matmul_w2000_apply, matmul_b2000_apply,
    shapeCast_self, shapeCast_self]

/-- The first head's stored value at row `p`, column `q` of the block, over the split and one-hot blocks. -/
theorem pay5_apply (v0 : Vec Ideal S1024x100 .f32) (v1 : Vec Ideal S1024x1 .i32) (v3 : Vec Ideal S4x4000 .f32)
    (v14 v16 : Vec Ideal S100x4000 .bf16) (p : Fin 1024) (q : Fin 4000) :
    k0_pay5 (F := Ideal) v0 v1 v3 v14 v16 (ix2 p q)
      = logSoftmax (fun k : Fin 4000 =>
          (((∑ z : Fin 100, k0_pay3 (F := Ideal) v0 (ix2 p z) * v14 (ix2 z k))
              + (∑ z : Fin 100, k0_pay3 (F := Ideal) v0 (ix2 p z) * v16 (ix2 z k)))
            + (∑ z : Fin 100, k0_pay4 (F := Ideal) v0 (ix2 p z) * v14 (ix2 z k)))
            + ∑ r : Fin 4, k0_pay2 (F := Ideal) v1 (ix2 p r) * v3 (ix2 r k)) q := by
  unfold k0_pay5
  refine (logSoftmax_apply (a := 1024) (b := 4000) _ _ _ _ _ _ _ p q).trans ?_
  refine congrArg (fun row : Fin 4000 → EReal => logSoftmax row q) (funext fun k => ?_)
  rw [addf_apply, addf_apply, addf_apply, matmul_w4000_apply, matmul_w4000_apply, matmul_w4000_apply, matmul_b4000_apply,
    shapeCast_self, shapeCast_self]

end Cert.Moe.Pay

end
-- ==== Proof.KernelHead.lean ====
/-
  The kernel's two result arrays are the two heads of the specification.

  Grid point `t` reads rows 1024·t … 1024·t + 1023 of θ and of the domain column, the four split topic matrices and
  the two bias tables whole, and writes back the same rows of both results. Each stored entry is the log-softmax of a
  row of logits (the payload lemmas); with finite θ, α, β the low halves of the split operands vanish and the three
  partial products are one, and with the domain word in range the one-hot product is the selected bias row — so the
  stored entry is the head's entry at that row (`entry_eq`). The blocks tile both arrays (`cover8`, `cover9`).
-/
import proofs.«415379_j53764400611707_3_alg».proof.Proof.Gen.KernelIdeal.Value
import proofs.«415379_j53764400611707_3_alg».proof.Proof.KernelHost
import proofs.«415379_j53764400611707_3_alg».proof.Proof.Payload
import proofs.«415379_j53764400611707_3_alg».proof.Proof.Spec
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx
open Idealize.ShloMosaic.Pipeline (Dat)

namespace Cert.Moe.Kernel

open Cert.KernelIdeal Cert.KernelIdeal.Gen Cert.KernelIdeal.Value Cert.Moe Cert.Moe.Host Cert.Moe.Pay

/-! ## One stored entry against one entry of the head -/

/-- With the split operands read as θ's row and the topic matrix (high halves themselves, low halves a finite value
    less itself), the one-hot row that of the row's domain word, and that word in range: the stored log-softmax is the
    head's. -/
theorem entry_eq {M : Nat} (θ : (⟨2, ![16384, 100]⟩ : Shape).Idx → EReal) (α : (⟨2, ![M, 400]⟩ : Shape).Idx → EReal)
    (β : (⟨2, ![100, 400]⟩ : Shape).Idx → EReal) (bias : (⟨2, ![4, M]⟩ : Shape).Idx → EReal)
    (d : (⟨1, ![16384]⟩ : Shape).Idx → BitVec 32) (n : Fin 16384) (q : Fin M)
    (xh xl : Fin 100 → EReal) (th tl : Fin 100 → Fin M → EReal) (oh : Fin 4 → EReal) (b : Fin 4 → Fin M → EReal)
    (hxh : ∀ z, xh z = θ (ix2 n z)) (hxl : ∀ z, xl z = θ (ix2 n z) - θ (ix2 n z))
    (hth : ∀ z k, th z k = topic β α z k) (htl : ∀ z k, tl z k = topic β α z k - topic β α z k)
    (hoh : ∀ r, oh r = onehot (d (ix1 n)) r) (hb : ∀ r k, b r k = bias (ix2 r k))
    (hθ : ∀ z, IsReal (θ (ix2 n z))) (hT : ∀ z k, IsReal (topic β α z k))
    (h0 : 0 ≤ (d (ix1 n)).toInt) (h4 : (d (ix1 n)).toInt < 4) :
    logSoftmax (fun k : Fin M =>
        (((∑ z : Fin 100, xh z * th z k) + (∑ z : Fin 100, xh z * tl z k)) + (∑ z : Fin 100, xl z * th z k))
          + ∑ r : Fin 4, oh r * b r k) q
      = logSoftmax (logit θ α β bias d n) q := by
  congr 1
  funext k
  simp only [hxh, hxl, hth, htl, hoh, hb]
  exact splitLogit_eq (fun z => θ (ix2 n z)) (fun z => topic β α z k) (fun z => topic β α z k - topic β α z k)
    (fun r => onehot (d (ix1 n)) r) (fun r => bias (ix2 r k)) (gatherRow (d (ix1 n))) hθ (fun z => (hT z k).sub_self)
    (fun r => onehot_eq h0 h4 r)

/-! ## The argument arrays and the windows' blocks -/

variable (m : (ℓ : Loc nD τ sig) → Buf (Elt Ideal) ℓ)

/-- θ as launched. -/
abbrev thetaArr (c : Dev nD) : FVec Ideal S16384x100 .f32 := m ((c : Thread nD τ).loc main_arg0)
/-- The first head's bias table as launched. -/
abbrev biasA (c : Dev nD) : FVec Ideal S4x4000 .f32 := m ((c : Thread nD τ).loc main_arg4)
/-- The second head's bias table as launched. -/
abbrev biasB (c : Dev nD) : FVec Ideal S4x2000 .f32 := m ((c : Thread nD τ).loc main_arg5)
/-- The domain words as launched. -/
abbrev domArr (c : Dev nD) : IVec S16384 32 := m ((c : Thread nD τ).loc main_arg6)

theorem hz : (![0, 0] : Fin 2 → Nat) = fun _ => 0 := funext fun a => by fin_cases a <;> rfl

/-- The printed index maps over the sixteen grid points: θ, the domain column and both results move by rows with the
    point; every other window stays on its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem N_16 : cfg0.N = 16 := N_0

/-- Row `p` of θ's block at point `t` is row 1024·t + p of θ. -/
theorem theta_blk (c : Dev nD) (t : Fin cfg0.N) (p : Fin 1024) (z : Fin 100) (n : Fin 16384) (hn : n.val = 1024 * t.val + p.val) :
    (iblk m c 0 t : Vec Ideal S1024x100 .f32) (ix2 p z) = thetaArr m c (ix2 n z) := by
  obtain ⟨ea, eb, -⟩ := idx_facts t
  unfold iblk
  rw [View.read_apply]
  show V m c main_arg0 (((cfg0.win 0).blk t).view.emb (ix2 p z)) = _
  have he : ((cfg0.win 0).blk t).view.emb (ix2 p z) = (ix2 n z : S16384x100.Idx) := funext fun a => Fin.ext (by
    match a with
    | ⟨0, _⟩ => show win0_0.index t (0 : Fin 2) * 1024 + 1 * p.val = n.val; rw [ea, hn]; omega
    | ⟨1, _⟩ => show win0_0.index t (1 : Fin 2) * 100 + 1 * z.val = z.val; rw [eb]; omega)
  rw [he, V_main_arg0]

/-- Row `p` of the domain column's block at point `t` is domain word 1024·t + p. -/
theorem dom_blk (c : Dev nD) (t : Fin cfg0.N) (p : Fin 1024) (n : Fin 16384) (hn : n.val = 1024 * t.val + p.val) :
    (iblk m c 1 t : Vec Ideal S1024x1 .i32) (ix2 p (0 : Fin 1)) = domArr m c (ix1 n) := by
  obtain ⟨-, -, ea, eb, -⟩ := idx_facts t
  unfold iblk
  rw [View.read_apply]
  show V m c main_v10 (((cfg0.win 1).blk t).view.emb (ix2 p (0 : Fin 1))) = _
  have he : ((cfg0.win 1).blk t).view.emb (ix2 p (0 : Fin 1)) = (ix2 n (0 : Fin 1) : S16384x1.Idx) := funext fun a => Fin.ext (by
    match a with
    | ⟨0, _⟩ => show win0_1.index t (0 : Fin 2) * 1024 + 1 * p.val = n.val; rw [ea, hn]; omega
    | ⟨1, _⟩ => show win0_1.index t (1 : Fin 2) * 1 + 1 * 0 = 0; rw [eb])
  rw [he, V_main_v10]
  exact shapeCast_apply _ _ _ (ix1 n) (by
    rw [Shape.rowMajor_val_one, Shape.rowMajor_val_two]
    show n.val = n.val * 1 + 0
    omega)

/-- The first head's high topic half, whole at every point. -/
theorem thiA_blk (c : Dev nD) (t : Fin cfg0.N) (r : Fin 100) (k : Fin 4000) :
    (iblk m c 2 t : Vec Ideal S100x4000 .bf16) (ix2 r k) = topic (betaArr m c) (alphaA m c) r k := by
  obtain ⟨-, -, -, -, -, -, -, -, ea, eb, -, -, -, -, -, -, -, -, -, -⟩ := idx_facts t
  unfold iblk
  rw [View.read_apply]
  show V m c main_v2 (((cfg0.win 2).blk t).view.emb (ix2 r k)) = _
  have he : ((cfg0.win 2).blk t).view.emb (ix2 r k) = (ix2 r k : S100x4000.Idx) := funext fun a => Fin.ext (by
    match a with
    | ⟨0, _⟩ => show win0_2.index t (0 : Fin 2) * 100 + 1 * r.val = r.val; rw [ea]; omega
    | ⟨1, _⟩ => show win0_2.index t (1 : Fin 2) * 4000 + 1 * k.val = k.val; rw [eb]; omega)
  rw [he]
  exact V_main_v2_apply m c r k

/-- The first head's low topic half, whole at every point. -/
theorem tloA_blk (c : Dev nD) (t : Fin cfg0.N) (r : Fin 100) (k : Fin 4000) :
    (iblk m c 3 t : Vec Ideal S100x4000 .bf16) (ix2 r k) = topic (betaArr m c) (alphaA m c) r k - topic (betaArr m c) (alphaA m c) r k := by
  obtain ⟨-, -, -, -, -, -, -, -, -, -, ea, eb, -, -, -, -, -, -, -, -⟩ := idx_facts t
  unfold iblk
  rw [View.read_apply]
  show V m c main_v5 (((cfg0.win 3).blk t).view.emb (ix2 r k)) = _
  have he : ((cfg0.win 3).blk t).view.emb (ix2 r k) = (ix2 r k : S100x4000.Idx) := funext fun a => Fin.ext (by
    match a with
    | ⟨0, _⟩ => show win0_3.index t (0 : Fin 2) * 100 + 1 * r.val = r.val; rw [ea]; omega
    | ⟨1, _⟩ => show win0_3.index t (1 : Fin 2) * 4000 + 1 * k.val = k.val; rw [eb]; omega)
  rw [he]
  exact V_main_v5_apply m c r k

/-- The second head's high topic half, whole at every point. -/
theorem thiB_blk (c : Dev nD) (t : Fin cfg0.N) (r : Fin 100) (k : Fin 2000) :
    (iblk m c 4 t : Vec Ideal S100x2000 .bf16) (ix2 r k) = topic (betaArr m c) (alphaB m c) r k := by
  obtain ⟨-, -, -, -, -, -, -, -, -, -, -, -, ea, eb, -, -, -, -, -, -⟩ := idx_facts t
  unfold iblk
  rw [View.read_apply]
  show V m c main_v6 (((cfg0.win 4).blk t).view.emb (ix2 r k)) = _
  have he : ((cfg0.win 4).blk t).view.emb (ix2 r k) = (ix2 r k : S100x2000.Idx) := funext fun a => Fin.ext (by
    match a with
    | ⟨0, _⟩ => show win0_4.index t (0 : Fin 2) * 100 + 1 * r.val = r.val; rw [ea]; omega
    | ⟨1, _⟩ => show win0_4.index t (1 : Fin 2) * 2000 + 1 * k.val = k.val; rw [eb]; omega)
  rw [he]
  exact V_main_v6_apply m c r k

/-- The second head's low topic half, whole at every point. -/
theorem tloB_blk (c : Dev nD) (t : Fin cfg0.N) (r : Fin 100) (k : Fin 2000) :
    (iblk m c 5 t : Vec Ideal S100x2000 .bf16) (ix2 r k) = topic (betaArr m c) (alphaB m c) r k - topic (betaArr m c) (alphaB m c) r k := by
  obtain ⟨-, -, -, -, -, -, -, -, -, -, -, -, -, -, ea, eb, -, -, -, -⟩ := idx_facts t
  unfold iblk
  rw [View.read_apply]
  show V m c main_v9 (((cfg0.win 5).blk t).view.emb (ix2 r k)) = _
  have he : ((cfg0.win 5).blk t).view.emb (ix2 r k) = (ix2 r k : S100x2000.Idx) := funext fun a => Fin.ext (by
    match a with
    | ⟨0, _⟩ => show win0_5.index t (0 : Fin 2) * 100 + 1 * r.val = r.val; rw [ea]; omega
    | ⟨1, _⟩ => show win0_5.index t (1 : Fin 2) * 2000 + 1 * k.val = k.val; rw [eb]; omega)
  rw [he]
  exact V_main_v9_apply m c r k

/-- The first head's bias table, whole at every point. -/
theorem biasA_blk (c : Dev nD) (t : Fin cfg0.N) (r : Fin 4) (k : Fin 4000) :
    (iblk m c 6 t : Vec Ideal S4x4000 .f32) (ix2 r k) = biasA m c (ix2 r k) := by
  obtain ⟨-, -, -, -, -, -, -, -, -, -, -, -, -, -, -, -, ea, eb, -, -⟩ := idx_facts t
  unfold iblk
  rw [View.read_apply]
  show V m c main_arg4 (((cfg0.win 6).blk t).view.emb (ix2 r k)) = _
  have he : ((cfg0.win 6).blk t).view.emb (ix2 r k) = (ix2 r k : S4x4000.Idx) := funext fun a => Fin.ext (by
    match a with
    | ⟨0, _⟩ => show win0_6.index t (0 : Fin 2) * 4 + 1 * r.val = r.val; rw [ea]; omega
    | ⟨1, _⟩ => show win0_6.index t (1 : Fin 2) * 4000 + 1 * k.val = k.val; rw [eb]; omega)
  rw [he]
  rw [V_main_arg4]

/-- The second head's bias table, whole at every point. -/
theorem biasB_blk (c : Dev nD) (t : Fin cfg0.N) (r : Fin 4) (k : Fin 2000) :
    (iblk m c 7 t : Vec Ideal S4x2000 .f32) (ix2 r k) = biasB m c (ix2 r k) := by
  obtain ⟨-, -, -, -, -, -, -, -, -, -, -, -, -, -, -, -, -, -, ea, eb⟩ := idx_facts t
  unfold iblk
  rw [View.read_apply]
  show V m c main_arg5 (((cfg0.win 7).blk t).view.emb (ix2 r k)) = _
  have he : ((cfg0.win 7).blk t).view.emb (ix2 r k) = (ix2 r k : S4x2000.Idx) := funext fun a => Fin.ext (by
    match a with
    | ⟨0, _⟩ => show win0_7.index t (0 : Fin 2) * 4 + 1 * r.val = r.val; rw [ea]; omega
    | ⟨1, _⟩ => show win0_7.index t (1 : Fin 2) * 2000 + 1 * k.val = k.val; rw [eb]; omega)
  rw [he]
  rw [V_main_arg5]

/-! ## What the precondition gives, per device -/

/-- The facts the bridge uses: θ, both α and β finite, and every domain word one of 0, 1, 2, 3. -/
structure Admissible (c : Dev nD) : Prop where
  theta : ∀ i, IsReal (thetaArr m c i)
  alphaA : ∀ i, IsReal (alphaA m c i)
  alphaB : ∀ i, IsReal (alphaB m c i)
  beta : ∀ i, IsReal (betaArr m c i)
  dom : ∀ i, 0 ≤ (domArr m c i).toInt ∧ (domArr m c i).toInt < 4

/-! ## The windows' blocks at their literal types -/

abbrev xblk (c : Dev nD) (t : Fin cfg0.N) : Vec Ideal S1024x100 .f32 := iblk m c 0 t
abbrev dblk (c : Dev nD) (t : Fin cfg0.N) : Vec Ideal S1024x1 .i32 := iblk m c 1 t
abbrev thiA (c : Dev nD) (t : Fin cfg0.N) : Vec Ideal S100x4000 .bf16 := iblk m c 2 t
abbrev tloA (c : Dev nD) (t : Fin cfg0.N) : Vec Ideal S100x4000 .bf16 := iblk m c 3 t
abbrev thiB (c : Dev nD) (t : Fin cfg0.N) : Vec Ideal S100x2000 .bf16 := iblk m c 4 t
abbrev tloB (c : Dev nD) (t : Fin cfg0.N) : Vec Ideal S100x2000 .bf16 := iblk m c 5 t
abbrev bAblk (c : Dev nD) (t : Fin cfg0.N) : Vec Ideal S4x4000 .f32 := iblk m c 6 t
abbrev bBblk (c : Dev nD) (t : Fin cfg0.N) : Vec Ideal S4x2000 .f32 := iblk m c 7 t

theorem xblk_apply (c : Dev nD) (t : Fin cfg0.N) (p : Fin 1024) (z : Fin 100) (n : Fin 16384) (hn : n.val = 1024 * t.val + p.val) :
    xblk m c t (ix2 p z) = thetaArr m c (ix2 n z) := theta_blk m c t p z n hn
theorem dblk_apply (c : Dev nD) (t : Fin cfg0.N) (p : Fin 1024) (n : Fin 16384) (hn : n.val = 1024 * t.val + p.val) :
    dblk m c t (ix2 p (0 : Fin 1)) = domArr m c (ix1 n) := dom_blk m c t p n hn

/-! ## Result one (width 4000) -/

/-- What point `t` stores at row `p`, column `q` of the block is the head's entry at row 1024·t + p. -/
theorem stored8 (c : Dev nD) (h : Admissible m c) (t : Fin cfg0.N) (p : Fin 1024) (q : Fin 4000) (n : Fin 16384)
    (hn : n.val = 1024 * t.val + p.val) :
    k0_pay5 (F := Ideal) (xblk m c t) (dblk m c t) (bAblk m c t) (thiA m c t) (tloA m c t) (ix2 p q)
      = head (thetaArr m c) (alphaA m c) (betaArr m c) (biasA m c) (domArr m c) (ix2 n q) := by
  rw [head_ix2]
  refine (pay5_apply (xblk m c t) (dblk m c t) (bAblk m c t) (thiA m c t) (tloA m c t) p q).trans ?_
  exact entry_eq (thetaArr m c) (alphaA m c) (betaArr m c) (biasA m c) (domArr m c) n q
    (fun z => k0_pay3 (F := Ideal) (xblk m c t) (ix2 p z)) (fun z => k0_pay4 (F := Ideal) (xblk m c t) (ix2 p z))
    (fun z k => thiA m c t (ix2 z k)) (fun z k => tloA m c t (ix2 z k))
    (fun r => k0_pay2 (F := Ideal) (dblk m c t) (ix2 p r)) (fun r k => bAblk m c t (ix2 r k))
    (fun z => by rw [pay3_eq]; exact xblk_apply m c t p z n hn)
    (fun z => by rw [pay4_apply, xblk_apply m c t p z n hn])
    (fun z k => thiA_blk m c t z k) (fun z k => tloA_blk m c t z k)
    (fun r => by rw [pay2_apply, dblk_apply m c t p n hn])
    (fun r k => biasA_blk m c t r k)
    (fun z => h.theta _) (fun z k => topic_isReal _ _ h.beta h.alphaA z k) (h.dom _).1 (h.dom _).2

/-- WHAT POINT `t` WRITES BACK is block `t` of the head. -/
theorem flushed8_eq (c : Dev nD) (h : Admissible m c) (t : Fin cfg0.N) :
    (dats m 0 c).flushed 8 t
      = ((cfg0.win 8).blk t).view.read (Elt Ideal) (head (thetaArr m c) (alphaA m c) (betaArr m c) (biasA m c) (domArr m c)) := by
  rw [flushed8]
  unfold out0_8
  rw [View.canon_unit_zero hz]
  simp only [View.ld_unit_zero (S := S1024x100) hz, View.ld_unit_zero (S := S1024x1) hz, View.ld_unit_zero (S := S4x4000) hz,
    View.ld_unit_zero (S := S100x4000) hz]
  obtain ⟨-, -, -, -, ea, eb, -⟩ := idx_facts t
  funext j
  have hj0 : (j 0).val < 1024 := (j 0).isLt
  have hj1 : (j 1).val < 4000 := (j 1).isLt
  have ht : t.val < 16 := lt_of_lt_of_eq t.isLt N_16
  have hlt : 1024 * t.val + (j 0).val < 16384 := by omega
  have hjj : j = ix2 (⟨(j 0).val, hj0⟩ : Fin 1024) (⟨(j 1).val, hj1⟩ : Fin 4000) := by
    funext a; match a with | ⟨0, _⟩ => rfl | ⟨1, _⟩ => rfl
  have hemb : ((cfg0.win 8).blk t).view.emb j
      = (ix2 (⟨1024 * t.val + (j 0).val, hlt⟩ : Fin 16384) (⟨(j 1).val, hj1⟩ : Fin 4000) : S16384x4000.Idx) := funext fun a => Fin.ext (by
    match a with
    | ⟨0, _⟩ => show win0_8.index t (0 : Fin 2) * 1024 + 1 * (j 0).val = 1024 * t.val + (j 0).val; rw [ea]; omega
    | ⟨1, _⟩ => show win0_8.index t (1 : Fin 2) * 4000 + 1 * (j 1).val = (j 1).val; rw [eb]; omega)
  show k0_pay5 (F := Ideal) (xblk m c t) (dblk m c t) (bAblk m c t) (thiA m c t) (tloA m c t) j = head (thetaArr m c) (alphaA m c) (betaArr m c) (biasA m c) (domArr m c) (((cfg0.win 8).blk t).view.emb j)
  rw [hemb]
  exact (congrArg (fun y => k0_pay5 (F := Ideal) (xblk m c t) (dblk m c t) (bAblk m c t) (thiA m c t) (tloA m c t) y) hjj).trans
    (stored8 m c h t ⟨(j 0).val, hj0⟩ ⟨(j 1).val, hj1⟩ ⟨1024 * t.val + (j 0).val, hlt⟩ rfl)

/-- Every entry of the result lies in some point's block: the blocks are the sixteen bands of 1024 rows. -/
theorem cover8 (i : S16384x4000.Idx) :
    ∃ t : Fin cfg0.N, (cfg0.win 8).flush t = true ∧ i ∈ ((cfg0.win 8).blk t).view.set := by
  have hi0 : (i 0).val < 16384 := (i 0).isLt
  have hi1 : (i 1).val < 4000 := (i 1).isLt
  have ht : (i 0).val / 1024 < cfg0.N := lt_of_lt_of_eq (by omega : (i 0).val / 1024 < 16) N_16.symm
  obtain ⟨-, -, -, -, ea, eb, -⟩ := idx_facts ⟨(i 0).val / 1024, ht⟩
  refine ⟨⟨(i 0).val / 1024, ht⟩, flush0_8 _, ?_⟩
  show i ∈ ((View.whole main_v11_0).slice (win0_8.rect ⟨(i 0).val / 1024, ht⟩)).set
  rw [View.set_slice_whole, Rect.mem_set_unit]
  intro a
  match a with
  | ⟨0, _⟩ =>
    show win0_8.index ⟨(i 0).val / 1024, ht⟩ (0 : Fin 2) * 1024 ≤ (i 0).val
      ∧ (i 0).val < win0_8.index ⟨(i 0).val / 1024, ht⟩ (0 : Fin 2) * 1024 + 1024
    rw [ea]; show (i 0).val / 1024 * 1024 ≤ (i 0).val ∧ (i 0).val < (i 0).val / 1024 * 1024 + 1024; omega
  | ⟨1, _⟩ =>
    show win0_8.index ⟨(i 0).val / 1024, ht⟩ (1 : Fin 2) * 4000 ≤ (i 1).val
      ∧ (i 1).val < win0_8.index ⟨(i 0).val / 1024, ht⟩ (1 : Fin 2) * 4000 + 4000
    rw [eb]; omega

/-- THE RESULT ARRAY after the run is the head. -/
theorem final8 (c : Dev nD) (h : Admissible m c) :
    (dats m 0 c).arrAt 8 cfg0.N = head (thetaArr m c) (alphaA m c) (betaArr m c) (biasA m c) (domArr m c) :=
  (dats m 0 c).arrAt_eq_of_cover 8 (head (thetaArr m c) (alphaA m c) (betaArr m c) (biasA m c) (domArr m c))
    (fun t _ => flushed8_eq m c h t) (cover8)

/-! ## Result two (width 2000) -/

/-- What point `t` stores at row `p`, column `q` of the block is the head's entry at row 1024·t + p. -/
theorem stored9 (c : Dev nD) (h : Admissible m c) (t : Fin cfg0.N) (p : Fin 1024) (q : Fin 2000) (n : Fin 16384)
    (hn : n.val = 1024 * t.val + p.val) :
    k0_pay1 (F := Ideal) (bBblk m c t) (k0_pay2 (F := Ideal) (dblk m c t)) (k0_pay3 (F := Ideal) (xblk m c t)) (k0_pay4 (F := Ideal) (xblk m c t)) (thiB m c t) (tloB m c t) (ix2 p q)
      = head (thetaArr m c) (alphaB m c) (betaArr m c) (biasB m c) (domArr m c) (ix2 n q) := by
  rw [head_ix2]
  refine (pay1_apply (bBblk m c t) (k0_pay2 (F := Ideal) (dblk m c t)) (k0_pay3 (F := Ideal) (xblk m c t)) (k0_pay4 (F := Ideal) (xblk m c t)) (thiB m c t) (tloB m c t) p q).trans ?_
  exact entry_eq (thetaArr m c) (alphaB m c) (betaArr m c) (biasB m c) (domArr m c) n q
    (fun z => k0_pay3 (F := Ideal) (xblk m c t) (ix2 p z)) (fun z => k0_pay4 (F := Ideal) (xblk m c t) (ix2 p z))
    (fun z k => thiB m c t (ix2 z k)) (fun z k => tloB m c t (ix2 z k))
    (fun r => k0_pay2 (F := Ideal) (dblk m c t) (ix2 p r)) (fun r k => bBblk m c t (ix2 r k))
    (fun z => by rw [pay3_eq]; exact xblk_apply m c t p z n hn)
    (fun z => by rw [pay4_apply, xblk_apply m c t p z n hn])
    (fun z k => thiB_blk m c t z k) (fun z k => tloB_blk m c t z k)
    (fun r => by rw [pay2_apply, dblk_apply m c t p n hn])
    (fun r k => biasB_blk m c t r k)
    (fun z => h.theta _) (fun z k => topic_isReal _ _ h.beta h.alphaB z k) (h.dom _).1 (h.dom _).2

/-- WHAT POINT `t` WRITES BACK is block `t` of the head. -/
theorem flushed9_eq (c : Dev nD) (h : Admissible m c) (t : Fin cfg0.N) :
    (dats m 0 c).flushed 9 t
      = ((cfg0.win 9).blk t).view.read (Elt Ideal) (head (thetaArr m c) (alphaB m c) (betaArr m c) (biasB m c) (domArr m c)) := by
  rw [flushed9]
  unfold out0_9
  rw [View.canon_unit_zero hz]
  simp only [View.ld_unit_zero (S := S1024x100) hz, View.ld_unit_zero (S := S1024x1) hz, View.ld_unit_zero (S := S4x2000) hz,
    View.ld_unit_zero (S := S100x2000) hz]
  obtain ⟨-, -, -, -, -, -, ea, eb, -⟩ := idx_facts t
  funext j
  have hj0 : (j 0).val < 1024 := (j 0).isLt
  have hj1 : (j 1).val < 2000 := (j 1).isLt
  have ht : t.val < 16 := lt_of_lt_of_eq t.isLt N_16
  have hlt : 1024 * t.val + (j 0).val < 16384 := by omega
  have hjj : j = ix2 (⟨(j 0).val, hj0⟩ : Fin 1024) (⟨(j 1).val, hj1⟩ : Fin 2000) := by
    funext a; match a with | ⟨0, _⟩ => rfl | ⟨1, _⟩ => rfl
  have hemb : ((cfg0.win 9).blk t).view.emb j
      = (ix2 (⟨1024 * t.val + (j 0).val, hlt⟩ : Fin 16384) (⟨(j 1).val, hj1⟩ : Fin 2000) : S16384x2000.Idx) := funext fun a => Fin.ext (by
    match a with
    | ⟨0, _⟩ => show win0_9.index t (0 : Fin 2) * 1024 + 1 * (j 0).val = 1024 * t.val + (j 0).val; rw [ea]; omega
    | ⟨1, _⟩ => show win0_9.index t (1 : Fin 2) * 2000 + 1 * (j 1).val = (j 1).val; rw [eb]; omega)
  show k0_pay1 (F := Ideal) (bBblk m c t) (k0_pay2 (F := Ideal) (dblk m c t)) (k0_pay3 (F := Ideal) (xblk m c t)) (k0_pay4 (F := Ideal) (xblk m c t)) (thiB m c t) (tloB m c t) j = head (thetaArr m c) (alphaB m c) (betaArr m c) (biasB m c) (domArr m c) (((cfg0.win 9).blk t).view.emb j)
  rw [hemb]
  exact (congrArg (fun y => k0_pay1 (F := Ideal) (bBblk m c t) (k0_pay2 (F := Ideal) (dblk m c t)) (k0_pay3 (F := Ideal) (xblk m c t)) (k0_pay4 (F := Ideal) (xblk m c t)) (thiB m c t) (tloB m c t) y) hjj).trans
    (stored9 m c h t ⟨(j 0).val, hj0⟩ ⟨(j 1).val, hj1⟩ ⟨1024 * t.val + (j 0).val, hlt⟩ rfl)

/-- Every entry of the result lies in some point's block: the blocks are the sixteen bands of 1024 rows. -/
theorem cover9 (i : S16384x2000.Idx) :
    ∃ t : Fin cfg0.N, (cfg0.win 9).flush t = true ∧ i ∈ ((cfg0.win 9).blk t).view.set := by
  have hi0 : (i 0).val < 16384 := (i 0).isLt
  have hi1 : (i 1).val < 2000 := (i 1).isLt
  have ht : (i 0).val / 1024 < cfg0.N := lt_of_lt_of_eq (by omega : (i 0).val / 1024 < 16) N_16.symm
  obtain ⟨-, -, -, -, -, -, ea, eb, -⟩ := idx_facts ⟨(i 0).val / 1024, ht⟩
  refine ⟨⟨(i 0).val / 1024, ht⟩, flush0_9 _, ?_⟩
  show i ∈ ((View.whole main_v11_1).slice (win0_9.rect ⟨(i 0).val / 1024, ht⟩)).set
  rw [View.set_slice_whole, Rect.mem_set_unit]
  intro a
  match a with
  | ⟨0, _⟩ =>
    show win0_9.index ⟨(i 0).val / 1024, ht⟩ (0 : Fin 2) * 1024 ≤ (i 0).val
      ∧ (i 0).val < win0_9.index ⟨(i 0).val / 1024, ht⟩ (0 : Fin 2) * 1024 + 1024
    rw [ea]; show (i 0).val / 1024 * 1024 ≤ (i 0).val ∧ (i 0).val < (i 0).val / 1024 * 1024 + 1024; omega
  | ⟨1, _⟩ =>
    show win0_9.index ⟨(i 0).val / 1024, ht⟩ (1 : Fin 2) * 2000 ≤ (i 1).val
      ∧ (i 1).val < win0_9.index ⟨(i 0).val / 1024, ht⟩ (1 : Fin 2) * 2000 + 2000
    rw [eb]; omega

/-- THE RESULT ARRAY after the run is the head. -/
theorem final9 (c : Dev nD) (h : Admissible m c) :
    (dats m 0 c).arrAt 9 cfg0.N = head (thetaArr m c) (alphaB m c) (betaArr m c) (biasB m c) (domArr m c) :=
  (dats m 0 c).arrAt_eq_of_cover 9 (head (thetaArr m c) (alphaB m c) (betaArr m c) (biasB m c) (domArr m c))
    (fun t _ => flushed9_eq m c h t) (cover9)

end Cert.Moe.Kernel

end
-- ==== Proof.RefStages.lean ====
/-
  The reference's run, read off the fold of its operations: the two result buffers hold the last stages of the
  stage-by-stage reading, and the argument buffers are as launched.

  The fold over the fifty-six operations is cut into four stretches — the host operations computing the first logits,
  the first log-softmax, the host operations computing the second logits, the second log-softmax — and the valuation
  between two stretches is kept abstract, so that each stretch is read over one unknown valuation only.
-/
import proofs.«415379_j53764400611707_3_alg».proof.Proof.RefRun
import proofs.«415379_j53764400611707_3_alg».proof.Proof.RefRead

noncomputable section

namespace Cert.Moe.RefStages

open Idealize.ShloMosaic Idealize.ShloMosaic.TcCoe Idealize.SL.Sem Idealize.ShloMosaic.StableHlo
open Cert.ReferenceIdeal Cert.ReferenceIdeal.Gen Cert.ReferenceIdeal.ValueP Cert.ReferenceIdeal.ReadP

variable {F : FTy → Type} [FloatOps F]

/-! ## The four stretches -/

/-- The first stretch: the thirteen operations computing the first logits `main_v10`. -/
abbrev opsA : List (HloOp τ sig (Elt F)) :=
  [ unary main_arg1 main_v0 ((transpose S400x4000 [1, 0] · transposes_S4000x400_S400x4000_1_0) : (⟨S4000x400, .f32⟩ : BufTy).Contents (Elt F) → (⟨S400x4000, .f32⟩ : BufTy).Contents (Elt F)),
    binary main_arg3 main_v0 main_v1 ((fun l r => Host.dotGeneral dot_S100x400_S400x4000_S100x4000_1_0_0_1_n_n none l r) : (⟨S100x400, .f32⟩ : BufTy).Contents (Elt F) → (⟨S400x4000, .f32⟩ : BufTy).Contents (Elt F) → (⟨S100x4000, .f32⟩ : BufTy).Contents (Elt F)),
    binary main_arg0 main_v1 main_v2 ((fun l r => Host.dotGeneral dot_S16384x100_S100x4000_S16384x4000_1_0_0_1_n_n none l r) : (⟨S16384x100, .f32⟩ : BufTy).Contents (Elt F) → (⟨S100x4000, .f32⟩ : BufTy).Contents (Elt F) → (⟨S16384x4000, .f32⟩ : BufTy).Contents (Elt F)),
    nullary main_c (constantI S_ 32 0#32),
    unary main_c main_v3 (broadcastInDim S16384 ![] bcast_S_S16384 : (⟨S_, .i32⟩ : BufTy).Contents (Elt F) → (⟨S16384, .i32⟩ : BufTy).Contents (Elt F)),
    binary main_arg6 main_v3 main_v4 (cmpi .slt : (⟨S16384, .i32⟩ : BufTy).Contents (Elt F) → (⟨S16384, .i32⟩ : BufTy).Contents (Elt F) → (⟨S16384, .i1⟩ : BufTy).Contents (Elt F)),
    nullary main_c_0 (constantI S_ 32 4#32),
    unary main_c_0 main_v5 (broadcastInDim S16384 ![] bcast_S_S16384 : (⟨S_, .i32⟩ : BufTy).Contents (Elt F) → (⟨S16384, .i32⟩ : BufTy).Contents (Elt F)),
    binary main_arg6 main_v5 main_v6 (addi : (⟨S16384, .i32⟩ : BufTy).Contents (Elt F) → (⟨S16384, .i32⟩ : BufTy).Contents (Elt F) → (⟨S16384, .i32⟩ : BufTy).Contents (Elt F)),
    ternary main_v4 main_v6 main_arg6 main_v7 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v7 main_v8 (broadcastInDim S16384x1 ![0] bcast_S16384_S16384x1_0 : (⟨S16384, .i32⟩ : BufTy).Contents (Elt F) → (⟨S16384x1, .i32⟩ : BufTy).Contents (Elt F)),
    binary main_arg4 main_v8 main_v9 ((fun x i => Host.gather gather_S4x4000_S16384x1_S16384x4000_1_0_n_n_0_1_14000 x i) : (⟨S4x4000, .f32⟩ : BufTy).Contents (Elt F) → (⟨S16384x1, .i32⟩ : BufTy).Contents (Elt F) → (⟨S16384x4000, .f32⟩ : BufTy).Contents (Elt F)),
    binary main_v2 main_v9 main_v10 (addf : (⟨S16384x4000, .f32⟩ : BufTy).Contents (Elt F) → (⟨S16384x4000, .f32⟩ : BufTy).Contents (Elt F) → (⟨S16384x4000, .f32⟩ : BufTy).Contents (Elt F)) ]

/-- The second stretch: the fifteen operations of the first log-softmax, from `main_v10` to `main_v11`. -/
abbrev opsB : List (HloOp τ sig (Elt F)) :=
  [ TRef.nullary (TRef.of (T := ⟨S_, .f32⟩) main_call0_cst) (constant S_ .f32 0xFF800000#32),
    TRef.binary (TRef.of (T := ⟨S16384x4000, .f32⟩) main_v10) (TRef.of (T := ⟨S_, .f32⟩) main_call0_cst) (TRef.of (T := ⟨S16384, .f32⟩) main_call0_v0) (fun x v => Host.reduce FloatOps.maximumf x v reducesTo_S16384x4000_S16384_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16384, .f32⟩) main_call0_v1) (broadcastInDim S16384 ![] bcast_S_S16384),
    TRef.binary (TRef.of (T := ⟨S16384, .f32⟩) main_call0_v1) (TRef.of (T := ⟨S16384, .f32⟩) main_call0_v0) (TRef.of (T := ⟨S16384, .f32⟩) main_call0_v2) maximumf,
    TRef.unary (TRef.of (T := ⟨S16384, .f32⟩) main_call0_v2) (TRef.of (T := ⟨S16384x1, .f32⟩) main_call0_v3) (broadcastInDim S16384x1 ![0] bcast_S16384_S16384x1_0),
    TRef.unary (TRef.of (T := ⟨S16384x1, .f32⟩) main_call0_v3) (TRef.of (T := ⟨S16384x4000, .f32⟩) main_call0_v4) (broadcastInDim S16384x4000 ![0, 1] bcast_S16384x1_S16384x4000_0_1),
    TRef.binary (TRef.of (T := ⟨S16384x4000, .f32⟩) main_v10) (TRef.of (T := ⟨S16384x4000, .f32⟩) main_call0_v4) (TRef.of (T := ⟨S16384x4000, .f32⟩) main_call0_v5) subf,
    TRef.unary (TRef.of (T := ⟨S16384x4000, .f32⟩) main_call0_v5) (TRef.of (T := ⟨S16384x4000, .f32⟩) main_call0_v6) Host.exp,
    TRef.nullary (TRef.of (T := ⟨S_, .f32⟩) main_call0_cst_1) (constant S_ .f32 0x00000000#32),
    TRef.binary (TRef.of (T := ⟨S16384x4000, .f32⟩) main_call0_v6) (TRef.of (T := ⟨S_, .f32⟩) main_call0_cst_1) (TRef.of (T := ⟨S16384, .f32⟩) main_call0_v7) (fun x v => Host.reduceAdd x v reducesTo_S16384x4000_S16384_d1 h_S_),
    TRef.unary (TRef.of (T := ⟨S16384, .f32⟩) main_call0_v7) (TRef.of (T := ⟨S16384x1, .f32⟩) main_call0_v8) (broadcastInDim S16384x1 ![0] bcast_S16384_S16384x1_0),
    TRef.unary (TRef.of (T := ⟨S16384x1, .f32⟩) main_call0_v8) (TRef.of (T := ⟨S16384x1, .f32⟩) main_call0_v9) Host.log,
    TRef.unary (TRef.of (T := ⟨S16384x1, .f32⟩) main_call0_v9) (TRef.of (T := ⟨S16384x4000, .f32⟩) main_call0_v10) (broadcastInDim S16384x4000 ![0, 1] bcast_S16384x1_S16384x4000_0_1),
    TRef.binary (TRef.of (T := ⟨S16384x4000, .f32⟩) main_call0_v5) (TRef.of (T := ⟨S16384x4000, .f32⟩) main_call0_v10) (TRef.of (T := ⟨S16384x4000, .f32⟩) main_v11) subf ]

/-- The third stretch: the thirteen operations computing the second logits `main_v22`. -/
abbrev opsC : List (HloOp τ sig (Elt F)) :=
  [ unary main_arg2 main_v12 ((transpose S400x2000 [1, 0] · transposes_S2000x400_S400x2000_1_0) : (⟨S2000x400, .f32⟩ : BufTy).Contents (Elt F) → (⟨S400x2000, .f32⟩ : BufTy).Contents (Elt F)),
    binary main_arg3 main_v12 main_v13 ((fun l r => Host.dotGeneral dot_S100x400_S400x2000_S100x2000_1_0_0_1_n_n none l r) : (⟨S100x400, .f32⟩ : BufTy).Contents (Elt F) → (⟨S400x2000, .f32⟩ : BufTy).Contents (Elt F) → (⟨S100x2000, .f32⟩ : BufTy).Contents (Elt F)),
    binary main_arg0 main_v13 main_v14 ((fun l r => Host.dotGeneral dot_S16384x100_S100x2000_S16384x2000_1_0_0_1_n_n none l r) : (⟨S16384x100, .f32⟩ : BufTy).Contents (Elt F) → (⟨S100x2000, .f32⟩ : BufTy).Contents (Elt F) → (⟨S16384x2000, .f32⟩ : BufTy).Contents (Elt F)),
    nullary main_c_1 (constantI S_ 32 0#32),
    unary main_c_1 main_v15 (broadcastInDim S16384 ![] bcast_S_S16384 : (⟨S_, .i32⟩ : BufTy).Contents (Elt F) → (⟨S16384, .i32⟩ : BufTy).Contents (Elt F)),
    binary main_arg6 main_v15 main_v16 (cmpi .slt : (⟨S16384, .i32⟩ : BufTy).Contents (Elt F) → (⟨S16384, .i32⟩ : BufTy).Contents (Elt F) → (⟨S16384, .i1⟩ : BufTy).Contents (Elt F)),
    nullary main_c_2 (constantI S_ 32 4#32),
    unary main_c_2 main_v17 (broadcastInDim S16384 ![] bcast_S_S16384 : (⟨S_, .i32⟩ : BufTy).Contents (Elt F) → (⟨S16384, .i32⟩ : BufTy).Contents (Elt F)),
    binary main_arg6 main_v17 main_v18 (addi : (⟨S16384, .i32⟩ : BufTy).Contents (Elt F) → (⟨S16384, .i32⟩ : BufTy).Contents (Elt F) → (⟨S16384, .i32⟩ : BufTy).Contents (Elt F)),
    ternary main_v16 main_v18 main_arg6 main_v19 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v19 main_v20 (broadcastInDim S16384x1 ![0] bcast_S16384_S16384x1_0 : (⟨S16384, .i32⟩ : BufTy).Contents (Elt F) → (⟨S16384x1, .i32⟩ : BufTy).Contents (Elt F)),
    binary main_arg5 main_v20 main_v21 ((fun x i => Host.gather gather_S4x2000_S16384x1_S16384x2000_1_0_n_n_0_1_12000 x i) : (⟨S4x2000, .f32⟩ : BufTy).Contents (Elt F) → (⟨S16384x1, .i32⟩ : BufTy).Contents (Elt F) → (⟨S16384x2000, .f32⟩ : BufTy).Contents (Elt F)),
    binary main_v14 main_v21 main_v22 (addf : (⟨S16384x2000, .f32⟩ : BufTy).Contents (Elt F) → (⟨S16384x2000, .f32⟩ : BufTy).Contents (Elt F) → (⟨S16384x2000, .f32⟩ : BufTy).Contents (Elt F)) ]

/-- The fourth stretch: the fifteen operations of the second log-softmax, from `main_v22` to `main_v23`. -/
abbrev opsD : List (HloOp τ sig (Elt F)) :=
  [ TRef.nullary (TRef.of (T := ⟨S_, .f32⟩) main_call1_cst) (constant S_ .f32 0xFF800000#32),
    TRef.binary (TRef.of (T := ⟨S16384x2000, .f32⟩) main_v22) (TRef.of (T := ⟨S_, .f32⟩) main_call1_cst) (TRef.of (T := ⟨S16384, .f32⟩) main_call1_v0) (fun x v => Host.reduce FloatOps.maximumf x v reducesTo_S16384x2000_S16384_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S16384, .f32⟩) main_call1_v1) (broadcastInDim S16384 ![] bcast_S_S16384),
    TRef.binary (TRef.of (T := ⟨S16384, .f32⟩) main_call1_v1) (TRef.of (T := ⟨S16384, .f32⟩) main_call1_v0) (TRef.of (T := ⟨S16384, .f32⟩) main_call1_v2) maximumf,
    TRef.unary (TRef.of (T := ⟨S16384, .f32⟩) main_call1_v2) (TRef.of (T := ⟨S16384x1, .f32⟩) main_call1_v3) (broadcastInDim S16384x1 ![0] bcast_S16384_S16384x1_0),
    TRef.unary (TRef.of (T := ⟨S16384x1, .f32⟩) main_call1_v3) (TRef.of (T := ⟨S16384x2000, .f32⟩) main_call1_v4) (broadcastInDim S16384x2000 ![0, 1] bcast_S16384x1_S16384x2000_0_1),
    TRef.binary (TRef.of (T := ⟨S16384x2000, .f32⟩) main_v22) (TRef.of (T := ⟨S16384x2000, .f32⟩) main_call1_v4) (TRef.of (T := ⟨S16384x2000, .f32⟩) main_call1_v5) subf,
    TRef.unary (TRef.of (T := ⟨S16384x2000, .f32⟩) main_call1_v5) (TRef.of (T := ⟨S16384x2000, .f32⟩) main_call1_v6) Host.exp,
    TRef.nullary (TRef.of (T := ⟨S_, .f32⟩) main_call1_cst_1) (constant S_ .f32 0x00000000#32),
    TRef.binary (TRef.of (T := ⟨S16384x2000, .f32⟩) main_call1_v6) (TRef.of (T := ⟨S_, .f32⟩) main_call1_cst_1) (TRef.of (T := ⟨S16384, .f32⟩) main_call1_v7) (fun x v => Host.reduceAdd x v reducesTo_S16384x2000_S16384_d1 h_S_),
    TRef.unary (TRef.of (T := ⟨S16384, .f32⟩) main_call1_v7) (TRef.of (T := ⟨S16384x1, .f32⟩) main_call1_v8) (broadcastInDim S16384x1 ![0] bcast_S16384_S16384x1_0),
    TRef.unary (TRef.of (T := ⟨S16384x1, .f32⟩) main_call1_v8) (TRef.of (T := ⟨S16384x1, .f32⟩) main_call1_v9) Host.log,
    TRef.unary (TRef.of (T := ⟨S16384x1, .f32⟩) main_call1_v9) (TRef.of (T := ⟨S16384x2000, .f32⟩) main_call1_v10) (broadcastInDim S16384x2000 ![0, 1] bcast_S16384x1_S16384x2000_0_1),
    TRef.binary (TRef.of (T := ⟨S16384x2000, .f32⟩) main_call1_v5) (TRef.of (T := ⟨S16384x2000, .f32⟩) main_call1_v10) (TRef.of (T := ⟨S16384x2000, .f32⟩) main_v23) subf ]

set_option maxRecDepth 8192 in
/-- The operations are the four stretches in a row. -/
theorem ops_split : (ops : List (HloOp τ sig (Elt F))) = opsA ++ (opsB ++ (opsC ++ opsD)) := rfl

/-- The fold over the operations is the fold over the four stretches in turn. -/
theorem after_ops (V : Valuation τ sig (Elt F)) :
    after ops V = after opsD (after opsC (after opsB (after opsA V))) := by
  rw [ops_split, StableHlo.after_append, StableHlo.after_append, StableHlo.after_append]

/-! ## No stretch writes an argument's buffer -/

theorem A_args (W : Valuation τ sig (Elt F)) :
    after opsA W (Proc.devRef .tc main_arg0) = W (Proc.devRef .tc main_arg0)
    ∧ after opsA W (Proc.devRef .tc main_arg1) = W (Proc.devRef .tc main_arg1)
    ∧ after opsA W (Proc.devRef .tc main_arg2) = W (Proc.devRef .tc main_arg2)
    ∧ after opsA W (Proc.devRef .tc main_arg3) = W (Proc.devRef .tc main_arg3)
    ∧ after opsA W (Proc.devRef .tc main_arg4) = W (Proc.devRef .tc main_arg4)
    ∧ after opsA W (Proc.devRef .tc main_arg5) = W (Proc.devRef .tc main_arg5)
    ∧ after opsA W (Proc.devRef .tc main_arg6) = W (Proc.devRef .tc main_arg6) := by
  refine ⟨?_, ?_, ?_, ?_, ?_, ?_, ?_⟩ <;> after_results_simp

theorem B_args (W : Valuation τ sig (Elt F)) :
    after opsB W (Proc.devRef .tc main_arg0) = W (Proc.devRef .tc main_arg0)
    ∧ after opsB W (Proc.devRef .tc main_arg1) = W (Proc.devRef .tc main_arg1)
    ∧ after opsB W (Proc.devRef .tc main_arg2) = W (Proc.devRef .tc main_arg2)
    ∧ after opsB W (Proc.devRef .tc main_arg3) = W (Proc.devRef .tc main_arg3)
    ∧ after opsB W (Proc.devRef .tc main_arg4) = W (Proc.devRef .tc main_arg4)
    ∧ after opsB W (Proc.devRef .tc main_arg5) = W (Proc.devRef .tc main_arg5)
    ∧ after opsB W (Proc.devRef .tc main_arg6) = W (Proc.devRef .tc main_arg6) := by
  refine ⟨?_, ?_, ?_, ?_, ?_, ?_, ?_⟩ <;> after_results_simp

theorem C_args (W : Valuation τ sig (Elt F)) :
    after opsC W (Proc.devRef .tc main_arg0) = W (Proc.devRef .tc main_arg0)
    ∧ after opsC W (Proc.devRef .tc main_arg1) = W (Proc.devRef .tc main_arg1)
    ∧ after opsC W (Proc.devRef .tc main_arg2) = W (Proc.devRef .tc main_arg2)
    ∧ after opsC W (Proc.devRef .tc main_arg3) = W (Proc.devRef .tc main_arg3)
    ∧ after opsC W (Proc.devRef .tc main_arg4) = W (Proc.devRef .tc main_arg4)
    ∧ after opsC W (Proc.devRef .tc main_arg5) = W (Proc.devRef .tc main_arg5)
    ∧ after opsC W (Proc.devRef .tc main_arg6) = W (Proc.devRef .tc main_arg6) := by
  refine ⟨?_, ?_, ?_, ?_, ?_, ?_, ?_⟩ <;> after_results_simp

theorem D_args (W : Valuation τ sig (Elt F)) :
    after opsD W (Proc.devRef .tc main_arg0) = W (Proc.devRef .tc main_arg0)
    ∧ after opsD W (Proc.devRef .tc main_arg1) = W (Proc.devRef .tc main_arg1)
    ∧ after opsD W (Proc.devRef .tc main_arg2) = W (Proc.devRef .tc main_arg2)
    ∧ after opsD W (Proc.devRef .tc main_arg3) = W (Proc.devRef .tc main_arg3)
    ∧ after opsD W (Proc.devRef .tc main_arg4) = W (Proc.devRef .tc main_arg4)
    ∧ after opsD W (Proc.devRef .tc main_arg5) = W (Proc.devRef .tc main_arg5)
    ∧ after opsD W (Proc.devRef .tc main_arg6) = W (Proc.devRef .tc main_arg6) := by
  refine ⟨?_, ?_, ?_, ?_, ?_, ?_, ?_⟩ <;> after_results_simp

/-! ## What each stretch computes -/

/-- The first stretch leaves the first logits, the stage `val_main_v10` of the arguments, in `main_v10`. -/
theorem A_v10 (W : Valuation τ sig (Elt F)) :
    after opsA W (Proc.devRef .tc main_v10)
      = val_main_v10 (F := F) (W (Proc.devRef .tc main_arg0)) (W (Proc.devRef .tc main_arg1)) (W (Proc.devRef .tc main_arg3))
          (W (Proc.devRef .tc main_arg4)) (W (Proc.devRef .tc main_arg6)) := by
  after_results_simp <;> rfl

/-- The third stretch leaves the second logits, the stage `val_main_v22` of the arguments, in `main_v22`. -/
theorem C_v22 (W : Valuation τ sig (Elt F)) :
    after opsC W (Proc.devRef .tc main_v22)
      = val_main_v22 (F := F) (W (Proc.devRef .tc main_arg0)) (W (Proc.devRef .tc main_arg2)) (W (Proc.devRef .tc main_arg3))
          (W (Proc.devRef .tc main_arg5)) (W (Proc.devRef .tc main_arg6)) := by
  after_results_simp <;> rfl

/-- The later stretches do not write the first result's buffer. -/
theorem C_v11 (W : Valuation τ sig (Elt F)) :
    after opsC W (Proc.devRef .tc main_v11) = W (Proc.devRef .tc main_v11) := by
  after_results_simp

theorem D_v11 (W : Valuation τ sig (Elt F)) :
    after opsD W (Proc.devRef .tc main_v11) = W (Proc.devRef .tc main_v11) := by
  after_results_simp

/-! ## The two log-softmax stretches -/

/-- The second stretch with each operation spelt over its buffers directly (the functions at the buffers' literal types). -/
abbrev opsB' : List (HloOp τ sig (Elt F)) :=
  [ nullary main_call0_cst ((constant S_ .f32 0xFF800000#32) : (⟨S_, .f32⟩ : BufTy).Contents (Elt F)),
    binary main_v10 main_call0_cst main_call0_v0 ((fun x v => Host.reduce FloatOps.maximumf x v reducesTo_S16384x4000_S16384_d1 h_S_) : (⟨S16384x4000, .f32⟩ : BufTy).Contents (Elt F) → (⟨S_, .f32⟩ : BufTy).Contents (Elt F) → (⟨S16384, .f32⟩ : BufTy).Contents (Elt F)),
    nullary main_call0_cst_0 ((constant S_ .f32 0xFF800000#32) : (⟨S_, .f32⟩ : BufTy).Contents (Elt F)),
    unary main_call0_cst_0 main_call0_v1 ((broadcastInDim S16384 ![] bcast_S_S16384) : (⟨S_, .f32⟩ : BufTy).Contents (Elt F) → (⟨S16384, .f32⟩ : BufTy).Contents (Elt F)),
    binary main_call0_v1 main_call0_v0 main_call0_v2 ((maximumf) : (⟨S16384, .f32⟩ : BufTy).Contents (Elt F) → (⟨S16384, .f32⟩ : BufTy).Contents (Elt F) → (⟨S16384, .f32⟩ : BufTy).Contents (Elt F)),
    unary main_call0_v2 main_call0_v3 ((broadcastInDim S16384x1 ![0] bcast_S16384_S16384x1_0) : (⟨S16384, .f32⟩ : BufTy).Contents (Elt F) → (⟨S16384x1, .f32⟩ : BufTy).Contents (Elt F)),
    unary main_call0_v3 main_call0_v4 ((broadcastInDim S16384x4000 ![0, 1] bcast_S16384x1_S16384x4000_0_1) : (⟨S16384x1, .f32⟩ : BufTy).Contents (Elt F) → (⟨S16384x4000, .f32⟩ : BufTy).Contents (Elt F)),
    binary main_v10 main_call0_v4 main_call0_v5 ((subf) : (⟨S16384x4000, .f32⟩ : BufTy).Contents (Elt F) → (⟨S16384x4000, .f32⟩ : BufTy).Contents (Elt F) → (⟨S16384x4000, .f32⟩ : BufTy).Contents (Elt F)),
    unary main_call0_v5 main_call0_v6 ((Host.exp) : (⟨S16384x4000, .f32⟩ : BufTy).Contents (Elt F) → (⟨S16384x4000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S16384x4000_S16384_d1 h_S_) : (⟨S16384x4000, .f32⟩ : BufTy).Contents (Elt F) → (⟨S_, .f32⟩ : BufTy).Contents (Elt F) → (⟨S16384, .f32⟩ : BufTy).Contents (Elt F)),
    unary main_call0_v7 main_call0_v8 ((broadcastInDim S16384x1 ![0] bcast_S16384_S16384x1_0) : (⟨S16384, .f32⟩ : BufTy).Contents (Elt F) → (⟨S16384x1, .f32⟩ : BufTy).Contents (Elt F)),
    unary main_call0_v8 main_call0_v9 ((Host.log) : (⟨S16384x1, .f32⟩ : BufTy).Contents (Elt F) → (⟨S16384x1, .f32⟩ : BufTy).Contents (Elt F)),
    unary main_call0_v9 main_call0_v10 ((broadcastInDim S16384x4000 ![0, 1] bcast_S16384x1_S16384x4000_0_1) : (⟨S16384x1, .f32⟩ : BufTy).Contents (Elt F) → (⟨S16384x4000, .f32⟩ : BufTy).Contents (Elt F)),
    binary main_call0_v5 main_call0_v10 main_v11 ((subf) : (⟨S16384x4000, .f32⟩ : BufTy).Contents (Elt F) → (⟨S16384x4000, .f32⟩ : BufTy).Contents (Elt F) → (⟨S16384x4000, .f32⟩ : BufTy).Contents (Elt F)) ]

/-- The fourth stretch with each operation spelt over its buffers directly. -/
abbrev opsD' : List (HloOp τ sig (Elt F)) :=
  [ nullary main_call1_cst ((constant S_ .f32 0xFF800000#32) : (⟨S_, .f32⟩ : BufTy).Contents (Elt F)),
    binary main_v22 main_call1_cst main_call1_v0 ((fun x v => Host.reduce FloatOps.maximumf x v reducesTo_S16384x2000_S16384_d1 h_S_) : (⟨S16384x2000, .f32⟩ : BufTy).Contents (Elt F) → (⟨S_, .f32⟩ : BufTy).Contents (Elt F) → (⟨S16384, .f32⟩ : BufTy).Contents (Elt F)),
    nullary main_call1_cst_0 ((constant S_ .f32 0xFF800000#32) : (⟨S_, .f32⟩ : BufTy).Contents (Elt F)),
    unary main_call1_cst_0 main_call1_v1 ((broadcastInDim S16384 ![] bcast_S_S16384) : (⟨S_, .f32⟩ : BufTy).Contents (Elt F) → (⟨S16384, .f32⟩ : BufTy).Contents (Elt F)),
    binary main_call1_v1 main_call1_v0 main_call1_v2 ((maximumf) : (⟨S16384, .f32⟩ : BufTy).Contents (Elt F) → (⟨S16384, .f32⟩ : BufTy).Contents (Elt F) → (⟨S16384, .f32⟩ : BufTy).Contents (Elt F)),
    unary main_call1_v2 main_call1_v3 ((broadcastInDim S16384x1 ![0] bcast_S16384_S16384x1_0) : (⟨S16384, .f32⟩ : BufTy).Contents (Elt F) → (⟨S16384x1, .f32⟩ : BufTy).Contents (Elt F)),
    unary main_call1_v3 main_call1_v4 ((broadcastInDim S16384x2000 ![0, 1] bcast_S16384x1_S16384x2000_0_1) : (⟨S16384x1, .f32⟩ : BufTy).Contents (Elt F) → (⟨S16384x2000, .f32⟩ : BufTy).Contents (Elt F)),
    binary main_v22 main_call1_v4 main_call1_v5 ((subf) : (⟨S16384x2000, .f32⟩ : BufTy).Contents (Elt F) → (⟨S16384x2000, .f32⟩ : BufTy).Contents (Elt F) → (⟨S16384x2000, .f32⟩ : BufTy).Contents (Elt F)),
    unary main_call1_v5 main_call1_v6 ((Host.exp) : (⟨S16384x2000, .f32⟩ : BufTy).Contents (Elt F) → (⟨S16384x2000, .f32⟩ : BufTy).Contents (Elt F)),
    nullary main_call1_cst_1 ((constant S_ .f32 0x00000000#32) : (⟨S_, .f32⟩ : BufTy).Contents (Elt F)),
    binary main_call1_v6 main_call1_cst_1 main_call1_v7 ((fun x v => Host.reduceAdd x v reducesTo_S16384x2000_S16384_d1 h_S_) : (⟨S16384x2000, .f32⟩ : BufTy).Contents (Elt F) → (⟨S_, .f32⟩ : BufTy).Contents (Elt F) → (⟨S16384, .f32⟩ : BufTy).Contents (Elt F)),
    unary main_call1_v7 main_call1_v8 ((broadcastInDim S16384x1 ![0] bcast_S16384_S16384x1_0) : (⟨S16384, .f32⟩ : BufTy).Contents (Elt F) → (⟨S16384x1, .f32⟩ : BufTy).Contents (Elt F)),
    unary main_call1_v8 main_call1_v9 ((Host.log) : (⟨S16384x1, .f32⟩ : BufTy).Contents (Elt F) → (⟨S16384x1, .f32⟩ : BufTy).Contents (Elt F)),
    unary main_call1_v9 main_call1_v10 ((broadcastInDim S16384x2000 ![0, 1] bcast_S16384x1_S16384x2000_0_1) : (⟨S16384x1, .f32⟩ : BufTy).Contents (Elt F) → (⟨S16384x2000, .f32⟩ : BufTy).Contents (Elt F)),
    binary main_call1_v5 main_call1_v10 main_v23 ((subf) : (⟨S16384x2000, .f32⟩ : BufTy).Contents (Elt F) → (⟨S16384x2000, .f32⟩ : BufTy).Contents (Elt F) → (⟨S16384x2000, .f32⟩ : BufTy).Contents (Elt F)) ]

attribute [local irreducible] Host.reduce Host.reduceAdd in
set_option maxRecDepth 8192 in
/-- The two spellings of the second stretch are the same operations: the typed references' transports are along
    reflexivity proofs. -/
theorem opsB_eq : (opsB : List (HloOp τ sig (Elt F))) = opsB' := rfl

attribute [local irreducible] Host.reduce Host.reduceAdd in
set_option maxRecDepth 8192 in
/-- The two spellings of the fourth stretch are the same operations. -/
theorem opsD_eq : (opsD : List (HloOp τ sig (Elt F))) = opsD' := rfl

/-- The second stretch is the first log-softmax: from the first logits in `main_v10` it leaves the stage
    `val_main_v11` in `main_v11`. -/
theorem B_v11 (W : Valuation τ sig (Elt F)) (x0 : (⟨S16384x100, .f32⟩ : BufTy).Contents (Elt F)) (x1 : (⟨S4000x400, .f32⟩ : BufTy).Contents (Elt F)) (x3 : (⟨S100x400, .f32⟩ : BufTy).Contents (Elt F))
    (x4 : (⟨S4x4000, .f32⟩ : BufTy).Contents (Elt F)) (x6 : (⟨S16384, .i32⟩ : BufTy).Contents (Elt F))
    (h : W (Proc.devRef .tc main_v10) = val_main_v10 (F := F) x0 x1 x3 x4 x6) :
    after opsB W (Proc.devRef .tc main_v11) = val_main_v11 (F := F) x0 x1 x3 x4 x6 := by
  rw [opsB_eq]
  after_results_simp
  rw [h]
  rfl

/-- The fourth stretch is the second log-softmax: from the second logits in `main_v22` it leaves the stage
    `val_main_v23` in `main_v23`. -/
theorem D_v23 (W : Valuation τ sig (Elt F)) (x0 : (⟨S16384x100, .f32⟩ : BufTy).Contents (Elt F)) (x2 : (⟨S2000x400, .f32⟩ : BufTy).Contents (Elt F)) (x3 : (⟨S100x400, .f32⟩ : BufTy).Contents (Elt F))
    (x5 : (⟨S4x2000, .f32⟩ : BufTy).Contents (Elt F)) (x6 : (⟨S16384, .i32⟩ : BufTy).Contents (Elt F))
    (h : W (Proc.devRef .tc main_v22) = val_main_v22 (F := F) x0 x2 x3 x5 x6) :
    after opsD W (Proc.devRef .tc main_v23) = val_main_v23 (F := F) x0 x2 x3 x5 x6 := by
  rw [opsD_eq]
  after_results_simp
  rw [h]
  rfl

/-! ## The results and the arguments after all the operations -/

/-- After all the operations the first result's buffer holds the stage `val_main_v11` of the launch contents. -/
theorem res_v11 (V : Valuation τ sig (Elt F)) :
    after ops V (Proc.devRef .tc main_v11)
      = val_main_v11 (F := F) (V (Proc.devRef .tc main_arg0)) (V (Proc.devRef .tc main_arg1)) (V (Proc.devRef .tc main_arg3))
          (V (Proc.devRef .tc main_arg4)) (V (Proc.devRef .tc main_arg6)) := by
  rw [after_ops, D_v11, C_v11]
  exact B_v11 _ _ _ _ _ _ (A_v10 V)

/-- … and the second result's buffer the stage `val_main_v23`. -/
theorem res_v23 (V : Valuation τ sig (Elt F)) :
    after ops V (Proc.devRef .tc main_v23)
      = val_main_v23 (F := F) (V (Proc.devRef .tc main_arg0)) (V (Proc.devRef .tc main_arg2)) (V (Proc.devRef .tc main_arg3))
          (V (Proc.devRef .tc main_arg5)) (V (Proc.devRef .tc main_arg6)) := by
  rw [after_ops]
  obtain ⟨a0, -, a2, a3, -, a5, a6⟩ := A_args V
  obtain ⟨b0, -, b2, b3, -, b5, b6⟩ := B_args (after opsA V)
  have hC := C_v22 (after opsB (after opsA V))
  rw [b0.trans a0, b2.trans a2, b3.trans a3, b5.trans a5, b6.trans a6] at hC
  exact D_v23 _ _ _ _ _ _ hC

/-- No operation writes an argument's buffer. -/
theorem kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6) := by
  rw [after_ops]
  obtain ⟨a0, a1, a2, a3, a4, a5, a6⟩ := A_args V
  obtain ⟨b0, b1, b2, b3, b4, b5, b6⟩ := B_args (after opsA V)
  obtain ⟨c0, c1, c2, c3, c4, c5, c6⟩ := C_args (after opsB (after opsA V))
  obtain ⟨d0, d1, d2, d3, d4, d5, d6⟩ := D_args (after opsC (after opsB (after opsA V)))
  exact ⟨d0.trans (c0.trans (b0.trans a0)), d1.trans (c1.trans (b1.trans a1)), d2.trans (c2.trans (b2.trans a2)),
    d3.trans (c3.trans (b3.trans a3)), d4.trans (c4.trans (b4.trans a4)), d5.trans (c5.trans (b5.trans a5)),
    d6.trans (c6.trans (b6.trans a6))⟩

/-- THE REFERENCE'S RUN: every weakly fair execution terminates with the two results at their last stages of the
    launched arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
          = val_main_v11 (F := F) (m ((c.tc : Thread nD τ).loc main_arg0)) (m ((c.tc : Thread nD τ).loc main_arg1))
              (m ((c.tc : Thread nD τ).loc main_arg3)) (m ((c.tc : Thread nD τ).loc main_arg4)) (m ((c.tc : Thread nD τ).loc main_arg6))
      ∧ r.2.mem ((c.tc : Thread nD τ).loc main_v23)
          = val_main_v23 (F := F) (m ((c.tc : Thread nD τ).loc main_arg0)) (m ((c.tc : Thread nD τ).loc main_arg2))
              (m ((c.tc : Thread nD τ).loc main_arg3)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(h c main_v11).trans (res_v11 (launchContents m c)), (h c main_v23).trans (res_v23 (launchContents m c)),
      (h c main_arg0).trans (kept (launchContents m c)).1, (h c main_arg1).trans (kept (launchContents m c)).2.1,
      (h c main_arg2).trans (kept (launchContents m c)).2.2.1, (h c main_arg3).trans (kept (launchContents m c)).2.2.2.1,
      (h c main_arg4).trans (kept (launchContents m c)).2.2.2.2.1, (h c main_arg5).trans (kept (launchContents m c)).2.2.2.2.2.1,
      (h c main_arg6).trans (kept (launchContents m c)).2.2.2.2.2.2⟩)
    (Cert.ReferenceIdeal.ValueP.run m ρ)

end Cert.Moe.RefStages

end
-- ==== Proof.RefHead.lean ====
/-
  The reference's two results, stage by stage, are the two heads of the specification: the same logits, read through
  the host's contraction, its gather of the bias row and its row reductions, then the same log-softmax.
-/
import proofs.«415379_j53764400611707_3_alg».proof.Proof.RefRead
import proofs.«415379_j53764400611707_3_alg».proof.Proof.Spec
import Idealize.ShloMosaic.Lib.ValueIdx
import Idealize.ShloMosaic.PureOps.Ideal.Laws

noncomputable section

open scoped BigOperators

namespace Cert.Moe.Ref

open Idealize.ShloMosaic Idealize.ShloMosaic.ValueIdx Cert.ReferenceIdeal Cert.ReferenceIdeal.ReadP Cert.Moe

/-! ## A gather of whole rows, read at an index -/

section Gather
variable {α : Type}

/-- The dimension numbers of a gather of whole rows: operand `[R, M]`, start indices `[B, 1]`, result `[B, M]`; operand
    axis 0 is indexed and collapsed, operand axis 1 is copied whole onto result axis 1. -/
private abbrev rowDims (R M B : Nat)
    (wf : GatherDims.WF ⟨2, ![R, M]⟩ ⟨2, ![B, 1]⟩ ⟨2, ![B, M]⟩ [1] [0] [] [0] [] 1 ![1, M]) :
    GatherDims ⟨2, ![R, M]⟩ ⟨2, ![B, 1]⟩ ⟨2, ![B, M]⟩ where
  offsetDims := [1]
  collapsedSliceDims := [0]
  operandBatchingDims := []
  startIndicesBatchingDims := []
  startIndexMap := [0]
  indexVectorDim := 1
  sliceSizes := ![1, M]
  wf := wf

/-- Of the two axes, the one that is not axis 0. -/
private theorem kept2 :
    (List.finRange 2).filter (fun x : Fin 2 => decide (x ∉ ([0] ++ [] : List (Fin 2)))) = [1] := by decide

/-- In one-element lists, the entry at the position of the one element. -/
private theorem getElem_idxOf_single {β γ : Type} [DecidableEq β] (l : List β) (m : List γ) (a : β) (c : γ)
    (hl : l = [a]) (hm : m = [c]) (hp : l.idxOf a < m.length) : m[l.idxOf a]'hp = c := by
  subst hl hm; simp

/-- The row gather read at `(n, k)`: the operand at the row `idx[n, 0]`, read signed and clamped into `[0, R − 1]`,
    and column `k`. -/
private theorem gather_row_apply {R M B w : Nat} (hR : 0 < R)
    (wf : GatherDims.WF ⟨2, ![R, M]⟩ ⟨2, ![B, 1]⟩ ⟨2, ![B, M]⟩ [1] [0] [] [0] [] 1 ![1, M])
    (x : (⟨2, ![R, M]⟩ : Shape).Idx → α) (idx : IVec ⟨2, ![B, 1]⟩ w) (n : Fin B) (k : Fin M) :
    Host.gather (rowDims R M B wf) x idx (ix2 n k)
      = x (ix2 (⟨min (idx (ix2 n (0 : Fin 1))).toInt.toNat (R - 1), by omega⟩ : Fin R) k) := by
  unfold Host.gather
  congr 1
  funext a
  refine Fin.ext ?_
  match a with
  | ⟨0, _⟩ =>
    show (rowDims R M B wf).start (ix2 n k) idx 0 + (rowDims R M B wf).batchCoord (ix2 n k) 0
      + (rowDims R M B wf).offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R M B wf).startIndexMap from List.mem_singleton.mpr rfl)]
    have hsi : (rowDims R M B wf).siIdx (ix2 n k) ⟨List.idxOf (0 : Fin 2) (rowDims R M B wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowDims R M B wf).start (ix2 n k) idx 1 + (rowDims R M B wf).batchCoord (ix2 n k) 1
      + (rowDims R M B wf).offCoord (ix2 n k) 1 = k.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rowDims R M B wf).startIndexMap from h10)]
    unfold GatherDims.offCoord
    rw [dif_pos (show (1 : Fin 2) ∈ (rowDims R M B wf).sKept from
      (GatherDims.mem_sKept _ _).mpr ⟨h10, List.not_mem_nil⟩)]
    have hk : (rowDims R M B wf).sKept = [(1 : Fin 2)] := kept2
    rw [getElem_idxOf_single _ _ _ (1 : Fin 2) hk rfl, Nat.zero_add]

end Gather

/-! ## A row maximum of the host -/

/-- The reduced index `n` with column `k` put back is `(n, k)`. -/
private theorem lift_row {B M : Nat} (h : (⟨2, ![B, M]⟩ : Shape).Reduces [1] (⟨1, ![B]⟩ : Shape)) (n : Fin B)
    (k : Fin ((⟨2, ![B, M]⟩ : Shape).size 1)) : h.lift (ix1 n) k = ix2 n (⟨k.val, k.isLt⟩ : Fin M) := by
  funext c; apply Fin.ext
  fin_cases c <;> rfl

/-- From the word of −∞ the host's reduce with a maximum body along a row is the row's folded maximum. -/
private theorem reduce_max_row {B M : Nat} (x : (⟨2, ![B, M]⟩ : Shape).Idx → EReal)
    (h' : (⟨2, ![B, M]⟩ : Shape).ReducesTo [1] (⟨1, ![B]⟩ : Shape))
    (h : (⟨2, ![B, M]⟩ : Shape).Reduces [1] (⟨1, ![B]⟩ : Shape)) (hu : 0 < (⟨0, ![]⟩ : Shape).numel) (n : Fin B) :
    Host.reduce (FloatOps.maximumf (F := Ideal) (φ := .f32)) x (constant (F := Ideal) (⟨0, ![]⟩ : Shape) .f32 0xFF800000#32) h' hu (ix1 n)
      = rowMax fun k : Fin M => x (ix2 n k) := by
  rw [Host.reduce_eq_fold_single (FloatOps.maximumf (F := Ideal) (φ := .f32)) x _ h' h hu]
  have hf : (x ∘ h.lift (ix1 n)) = fun k : Fin M => x (ix2 n k) := funext fun k => congrArg x (lift_row h n k)
  exact congrArg (fun f => Finset.fold max (Ideal.ofBits .f32 0xFF800000#32) f (Finset.univ : Finset (Fin M))) hf

/-! ## The wrapped domain word -/

/-- A select on "the word is negative" between the word plus four and the word is the `if`. -/
private theorem wrap_word (w : BitVec 32) :
    Scalar.select (IntOp.cmpi .slt w 0#32) (IntOp.addi w 4#32) w = if w.slt 0#32 then w + 4#32 else w := by
  unfold Scalar.select IntOp.cmpi IntOp.addi
  cases h : w.slt 0#32 <;> simp

/-! ## The first head -/

section Head0
variable (x0 : (⟨S16384x100, .f32⟩ : BufTy).Contents (Elt Ideal)) (x1 : (⟨S4000x400, .f32⟩ : BufTy).Contents (Elt Ideal))
  (x3 : (⟨S100x400, .f32⟩ : BufTy).Contents (Elt Ideal)) (x4 : (⟨S4x4000, .f32⟩ : BufTy).Contents (Elt Ideal))
  (x6 : (⟨S16384, .i32⟩ : BufTy).Contents (Elt Ideal))

/-- The start index of row `n` is the domain word, four added when it is negative. -/
private theorem wrap0 (n : Fin 16384) :
    val_main_v8 (F := Ideal) x6 (ix2 n (0 : Fin 1))
      = if (x6 (ix1 n)).slt 0#32 then x6 (ix1 n) + 4#32 else x6 (ix1 n) := by
  have e : idx_main_v8 (ix2 n (0 : Fin 1)) = ix1 n := funext fun a => Fin.ext (by match a with | ⟨0, _⟩ => rfl)
  rw [val_main_v8_apply, e, val_main_v7_apply, val_main_v4_apply, val_main_v6_apply, val_main_v3_apply,
    val_main_v5_apply, val_main_c_apply, val_main_c_0_apply]
  exact wrap_word (x6 (ix1 n))

/-- The gathered bias at `(n, k)` is the bias table at the row the domain word selects. -/
private theorem gather0 (n : Fin 16384) (k : Fin 4000) :
    val_main_v9 (F := Ideal) x4 x6 (ix2 n k) = x4 (ix2 (gatherRow (x6 (ix1 n))) k) := by
  unfold val_main_v9
  refine (gather_row_apply (R := 4) (M := 4000) (B := 16384) (by decide)
    Gen.gather_S4x4000_S16384x1_S16384x4000_1_0_n_n_0_1_14000_wf x4 (val_main_v8 (F := Ideal) x6) n k).trans ?_
  refine congrArg x4 (congrArg (fun r : Fin 4 => ix2 r k) (Fin.ext ?_))
  show min (val_main_v8 (F := Ideal) x6 (ix2 n (0 : Fin 1))).toInt.toNat (4 - 1) = (gatherRow (x6 (ix1 n))).val
  rw [wrap0]
  rfl

/-- The logits stage at `(n, k)` is the specification's logit. -/
private theorem logits0 (n : Fin 16384) (k : Fin 4000) :
    val_main_v10 (F := Ideal) x0 x1 x3 x4 x6 (ix2 n k) = logit x0 x1 x3 x4 x6 n k := by
  rw [val_main_v10_apply, Ideal.addf_def, val_main_v2_apply, gather0]
  unfold logit
  refine congrArg (· + x4 (ix2 (gatherRow (x6 (ix1 n))) k)) (Finset.sum_congr rfl fun z _ => ?_)
  have e1 : lidx_main_v2 (ix2 n k) z = ix2 n z :=
    funext fun a => Fin.ext (by match a with | ⟨0, _⟩ => rfl | ⟨1, _⟩ => rfl)
  have e2 : ridx_main_v2 (ix2 n k) z = ix2 z k :=
    funext fun a => Fin.ext (by match a with | ⟨0, _⟩ => rfl | ⟨1, _⟩ => rfl)
  rw [e1, e2, val_main_v1_apply]
  unfold topic
  refine congrArg (x0 (ix2 n z) * ·) (Finset.sum_congr rfl fun e _ => ?_)
  have e3 : lidx_main_v1 (ix2 z k) e = ix2 z e :=
    funext fun a => Fin.ext (by match a with | ⟨0, _⟩ => rfl | ⟨1, _⟩ => rfl)
  have e4 : idx_main_v0 (ridx_main_v1 (ix2 z k) e) = ix2 k e :=
    funext fun a => Fin.ext (by match a with | ⟨0, _⟩ => rfl | ⟨1, _⟩ => rfl)
  rw [e3, val_main_v0_apply, e4]

/-- The shift of row `n` is the folded maximum of the row of logits. -/
private theorem shift0 (n : Fin 16384) :
    val_main_call0_v2 (F := Ideal) x0 x1 x3 x4 x6 (ix1 n)
      = rowMax fun k : Fin 4000 => val_main_v10 (F := Ideal) x0 x1 x3 x4 x6 (ix2 n k) := by
  rw [val_main_call0_v2_apply, val_main_call0_v1_apply, val_main_call0_cst_0_apply, Ideal.maximumf_def]
  unfold val_main_call0_v0 val_main_call0_cst
  rw [reduce_max_row (val_main_v10 (F := Ideal) x0 x1 x3 x4 x6) Gen.reducesTo_S16384x4000_S16384_d1 (by decide) Gen.h_S_ n]
  exact max_start_rowMax _

/-- The shifted logits at `(n, k)`. -/
private theorem shifted0 (n : Fin 16384) (k : Fin 4000) :
    val_main_call0_v5 (F := Ideal) x0 x1 x3 x4 x6 (ix2 n k)
      = val_main_v10 (F := Ideal) x0 x1 x3 x4 x6 (ix2 n k)
        - rowMax fun j : Fin 4000 => val_main_v10 (F := Ideal) x0 x1 x3 x4 x6 (ix2 n j) := by
  have e : idx_main_call0_v3 (idx_main_call0_v4 (ix2 n k)) = ix1 n :=
    funext fun a => Fin.ext (by match a with | ⟨0, _⟩ => rfl)
  rw [val_main_call0_v5_apply, Ideal.subf_def, val_main_call0_v4_apply, val_main_call0_v3_apply, e, shift0]

/-- The logarithm of the row's sum of exponentials, at `(n, q)`. -/
private theorem logsum0 (n : Fin 16384) (q : Fin 4000) :
    val_main_call0_v10 (F := Ideal) x0 x1 x3 x4 x6 (ix2 n q)
      = Ideal.log (∑ j : Fin 4000, Ideal.exp (val_main_v10 (F := Ideal) x0 x1 x3 x4 x6 (ix2 n j)
          - rowMax fun j : Fin 4000 => val_main_v10 (F := Ideal) x0 x1 x3 x4 x6 (ix2 n j))) := by
  have e : idx_main_call0_v8 (idx_main_call0_v10 (ix2 n q)) = ix1 n :=
    funext fun a => Fin.ext (by match a with | ⟨0, _⟩ => rfl)
  rw [val_main_call0_v10_apply, val_main_call0_v9_apply, Ideal.hostUnary_log_def, val_main_call0_v8_apply, e,
    val_main_call0_v7_apply, val_main_call0_cst_1_apply,
    show FloatOps.ofBits (F := Ideal) .f32 0x00000000#32 = (0 : EReal) from Ideal.ofBits_zero_f32, zero_add]
  refine congrArg Ideal.log (Finset.sum_congr rfl fun j _ => ?_)
  have e7 : idx_main_call0_v7 (ix1 n) j = ix2 n j :=
    funext fun a => Fin.ext (by match a with | ⟨0, _⟩ => rfl | ⟨1, _⟩ => rfl)
  rw [e7, val_main_call0_v6_apply, Ideal.hostUnary_exp_def, shifted0]

end Head0

/-- The reference's first result is the first head. -/
theorem head0 (x0 : (⟨S16384x100, .f32⟩ : BufTy).Contents (Elt Ideal)) (x1 : (⟨S4000x400, .f32⟩ : BufTy).Contents (Elt Ideal))
    (x3 : (⟨S100x400, .f32⟩ : BufTy).Contents (Elt Ideal)) (x4 : (⟨S4x4000, .f32⟩ : BufTy).Contents (Elt Ideal))
    (x6 : (⟨S16384, .i32⟩ : BufTy).Contents (Elt Ideal)) :
    val_main_v11 (F := Ideal) x0 x1 x3 x4 x6 = head x0 x1 x3 x4 x6 := by
  funext i
  obtain ⟨n, q, rfl⟩ : ∃ (n : Fin 16384) (q : Fin 4000), i = ix2 n q := ⟨i 0, i 1, eq_ix2 i⟩
  rw [head_ix2, val_main_v11_apply, Ideal.subf_def, shifted0, logsum0]
  have hL : (fun k : Fin 4000 => val_main_v10 (F := Ideal) x0 x1 x3 x4 x6 (ix2 n k)) = logit x0 x1 x3 x4 x6 n :=
    funext fun k => logits0 x0 x1 x3 x4 x6 n k
  unfold logSoftmax
  rw [← hL]

/-! ## The second head -/

section Head1
variable (x0 : (⟨S16384x100, .f32⟩ : BufTy).Contents (Elt Ideal)) (x2 : (⟨S2000x400, .f32⟩ : BufTy).Contents (Elt Ideal))
  (x3 : (⟨S100x400, .f32⟩ : BufTy).Contents (Elt Ideal)) (x5 : (⟨S4x2000, .f32⟩ : BufTy).Contents (Elt Ideal))
  (x6 : (⟨S16384, .i32⟩ : BufTy).Contents (Elt Ideal))

/-- The start index of row `n` is the domain word, four added when it is negative. -/
private theorem wrap1 (n : Fin 16384) :
    val_main_v20 (F := Ideal) x6 (ix2 n (0 : Fin 1))
      = if (x6 (ix1 n)).slt 0#32 then x6 (ix1 n) + 4#32 else x6 (ix1 n) := by
  have e : idx_main_v20 (ix2 n (0 : Fin 1)) = ix1 n := funext fun a => Fin.ext (by match a with | ⟨0, _⟩ => rfl)
  rw [val_main_v20_apply, e, val_main_v19_apply, val_main_v16_apply, val_main_v18_apply, val_main_v15_apply,
    val_main_v17_apply, val_main_c_1_apply, val_main_c_2_apply]
  exact wrap_word (x6 (ix1 n))

/-- The gathered bias at `(n, k)` is the bias table at the row the domain word selects. -/
private theorem gather1 (n : Fin 16384) (k : Fin 2000) :
    val_main_v21 (F := Ideal) x5 x6 (ix2 n k) = x5 (ix2 (gatherRow (x6 (ix1 n))) k) := by
  unfold val_main_v21
  refine (gather_row_apply (R := 4) (M := 2000) (B := 16384) (by decide)
    Gen.gather_S4x2000_S16384x1_S16384x2000_1_0_n_n_0_1_12000_wf x5 (val_main_v20 (F := Ideal) x6) n k).trans ?_
  refine congrArg x5 (congrArg (fun r : Fin 4 => ix2 r k) (Fin.ext ?_))
  show min (val_main_v20 (F := Ideal) x6 (ix2 n (0 : Fin 1))).toInt.toNat (4 - 1) = (gatherRow (x6 (ix1 n))).val
  rw [wrap1]
  rfl

/-- The logits stage at `(n, k)` is the specification's logit. -/
private theorem logits1 (n : Fin 16384) (k : Fin 2000) :
    val_main_v22 (F := Ideal) x0 x2 x3 x5 x6 (ix2 n k) = logit x0 x2 x3 x5 x6 n k := by
  rw [val_main_v22_apply, Ideal.addf_def, val_main_v14_apply, gather1]
  unfold logit
  refine congrArg (· + x5 (ix2 (gatherRow (x6 (ix1 n))) k)) (Finset.sum_congr rfl fun z _ => ?_)
  have e1 : lidx_main_v14 (ix2 n k) z = ix2 n z :=
    funext fun a => Fin.ext (by match a with | ⟨0, _⟩ => rfl | ⟨1, _⟩ => rfl)
  have e2 : ridx_main_v14 (ix2 n k) z = ix2 z k :=
    funext fun a => Fin.ext (by match a with | ⟨0, _⟩ => rfl | ⟨1, _⟩ => rfl)
  rw [e1, e2, val_main_v13_apply]
  unfold topic
  refine congrArg (x0 (ix2 n z) * ·) (Finset.sum_congr rfl fun e _ => ?_)
  have e3 : lidx_main_v13 (ix2 z k) e = ix2 z e :=
    funext fun a => Fin.ext (by match a with | ⟨0, _⟩ => rfl | ⟨1, _⟩ => rfl)
  have e4 : idx_main_v12 (ridx_main_v13 (ix2 z k) e) = ix2 k e :=
    funext fun a => Fin.ext (by match a with | ⟨0, _⟩ => rfl | ⟨1, _⟩ => rfl)
  rw [e3, val_main_v12_apply, e4]

/-- The shift of row `n` is the folded maximum of the row of logits. -/
private theorem shift1 (n : Fin 16384) :
    val_main_call1_v2 (F := Ideal) x0 x2 x3 x5 x6 (ix1 n)
      = rowMax fun k : Fin 2000 => val_main_v22 (F := Ideal) x0 x2 x3 x5 x6 (ix2 n k) := by
  rw [val_main_call1_v2_apply, val_main_call1_v1_apply, val_main_call1_cst_0_apply, Ideal.maximumf_def]
  unfold val_main_call1_v0 val_main_call1_cst
  rw [reduce_max_row (val_main_v22 (F := Ideal) x0 x2 x3 x5 x6) Gen.reducesTo_S16384x2000_S16384_d1 (by decide) Gen.h_S_ n]
  exact max_start_rowMax _

/-- The shifted logits at `(n, k)`. -/
private theorem shifted1 (n : Fin 16384) (k : Fin 2000) :
    val_main_call1_v5 (F := Ideal) x0 x2 x3 x5 x6 (ix2 n k)
      = val_main_v22 (F := Ideal) x0 x2 x3 x5 x6 (ix2 n k)
        - rowMax fun j : Fin 2000 => val_main_v22 (F := Ideal) x0 x2 x3 x5 x6 (ix2 n j) := by
  have e : idx_main_call1_v3 (idx_main_call1_v4 (ix2 n k)) = ix1 n :=
    funext fun a => Fin.ext (by match a with | ⟨0, _⟩ => rfl)
  rw [val_main_call1_v5_apply, Ideal.subf_def, val_main_call1_v4_apply, val_main_call1_v3_apply, e, shift1]

/-- The logarithm of the row's sum of exponentials, at `(n, q)`. -/
private theorem logsum1 (n : Fin 16384) (q : Fin 2000) :
    val_main_call1_v10 (F := Ideal) x0 x2 x3 x5 x6 (ix2 n q)
      = Ideal.log (∑ j : Fin 2000, Ideal.exp (val_main_v22 (F := Ideal) x0 x2 x3 x5 x6 (ix2 n j)
          - rowMax fun j : Fin 2000 => val_main_v22 (F := Ideal) x0 x2 x3 x5 x6 (ix2 n j))) := by
  have e : idx_main_call1_v8 (idx_main_call1_v10 (ix2 n q)) = ix1 n :=
    funext fun a => Fin.ext (by match a with | ⟨0, _⟩ => rfl)
  rw [val_main_call1_v10_apply, val_main_call1_v9_apply, Ideal.hostUnary_log_def, val_main_call1_v8_apply, e,
    val_main_call1_v7_apply, val_main_call1_cst_1_apply,
    show FloatOps.ofBits (F := Ideal) .f32 0x00000000#32 = (0 : EReal) from Ideal.ofBits_zero_f32, zero_add]
  refine congrArg Ideal.log (Finset.sum_congr rfl fun j _ => ?_)
  have e7 : idx_main_call1_v7 (ix1 n) j = ix2 n j :=
    funext fun a => Fin.ext (by match a with | ⟨0, _⟩ => rfl | ⟨1, _⟩ => rfl)
  rw [e7, val_main_call1_v6_apply, Ideal.hostUnary_exp_def, shifted1]

end Head1

/-- The reference's second result is the second head. -/
theorem head1 (x0 : (⟨S16384x100, .f32⟩ : BufTy).Contents (Elt Ideal)) (x2 : (⟨S2000x400, .f32⟩ : BufTy).Contents (Elt Ideal))
    (x3 : (⟨S100x400, .f32⟩ : BufTy).Contents (Elt Ideal)) (x5 : (⟨S4x2000, .f32⟩ : BufTy).Contents (Elt Ideal))
    (x6 : (⟨S16384, .i32⟩ : BufTy).Contents (Elt Ideal)) :
    val_main_v23 (F := Ideal) x0 x2 x3 x5 x6 = head x0 x2 x3 x5 x6 := by
  funext i
  obtain ⟨n, q, rfl⟩ : ∃ (n : Fin 16384) (q : Fin 2000), i = ix2 n q := ⟨i 0, i 1, eq_ix2 i⟩
  rw [head_ix2, val_main_v23_apply, Ideal.subf_def, shifted1, logsum1]
  have hL : (fun k : Fin 2000 => val_main_v22 (F := Ideal) x0 x2 x3 x5 x6 (ix2 n k)) = logit x0 x2 x3 x5 x6 n :=
    funext fun k => logits1 x0 x2 x3 x5 x6 n k
  unfold logSoftmax
  rw [← hL]

end Cert.Moe.Ref

end
-- ==== Proof.lean ====
/-
  The certificate of the two-headed mixture output: a fused kernel against its reference.

  For each head (width M = 4000 and 2000) the result at row n is the log-softmax over the row of the logits
      Σ_z θ[n, z] · T[z, k] + bias[domain[n], k],     T = β · αᵀ.
  The reference computes exactly that: two contractions, a gather of the bias row, and jax's log-softmax. The kernel
  splits θ and T into a high half (a change of float format, the identity on the extended reals) and a low half
  (the value less its high half), adds the three partial products hi·hi + hi·lo + lo·hi, and replaces the gather by a
  product of a one-hot row with the bias table. On the extended reals a FINITE value less itself is zero, so the low
  halves vanish and the three products are one (this is where finiteness of θ, α and β is used; x − x is not zero at
  an infinity); and for a domain word in {0, 1, 2, 3} the one-hot product is the gathered row (outside that range the
  reference wraps or clamps the index while the one-hot row is empty, which is why the range is part of the
  precondition). The row maximum and the row sum are the same folds on both sides, so the log-softmax is one function
  of the logits (`Cert.Moe.logSoftmax`), and both programs end at `Cert.Moe.head` of the argument arrays.

  The kernel's side: the body's arithmetic read at an entry (Proof/Payload.lean), the arrays the host writes before
  the region (Proof/KernelHost.lean), blocks to arrays (Proof/KernelHead.lean). The reference's side: its run read
  off the fold of its operations (Proof/RefStages.lean) and its stages against the head (Proof/RefHead.lean). The
  precondition decoded (Proof/PreFacts.lean). Here: the five claims.
-/
import proofs.«415379_j53764400611707_3_alg».proof.Defs
import proofs.«415379_j53764400611707_3_alg».proof.Proof.Gen.Kernel
import proofs.«415379_j53764400611707_3_alg».proof.Proof.Gen.Kernel.Skeleton
import proofs.«415379_j53764400611707_3_alg».proof.Proof.Gen.Kernel.Launch
import proofs.«415379_j53764400611707_3_alg».proof.Proof.Gen.Kernel.Points
import proofs.«415379_j53764400611707_3_alg».proof.Proof.Gen.Kernel.Frame
import proofs.«415379_j53764400611707_3_alg».proof.Proof.Gen.KernelIdeal
import proofs.«415379_j53764400611707_3_alg».proof.Proof.Gen.KernelIdeal.Skeleton
import proofs.«415379_j53764400611707_3_alg».proof.Proof.Gen.KernelIdeal.Launch
import proofs.«415379_j53764400611707_3_alg».proof.Proof.Gen.KernelIdeal.Points
import proofs.«415379_j53764400611707_3_alg».proof.Proof.Gen.KernelIdeal.Frame
import proofs.«415379_j53764400611707_3_alg».proof.Proof.Gen.ReferenceIdeal
import proofs.«415379_j53764400611707_3_alg».proof.Proof.Gen.Pre_finite_inputs
import proofs.«415379_j53764400611707_3_alg».proof.Proof.Gen.KernelIdeal.Value
import proofs.«415379_j53764400611707_3_alg».proof.Proof.Spec
import proofs.«415379_j53764400611707_3_alg».proof.Proof.PreFacts
import proofs.«415379_j53764400611707_3_alg».proof.Proof.KernelHead
import proofs.«415379_j53764400611707_3_alg».proof.Proof.RefStages
import proofs.«415379_j53764400611707_3_alg».proof.Proof.RefHead
import Idealize.ShloMosaic.Adequacy
import Idealize.ShloMosaic.Init

noncomputable section

namespace Cert.Proof

open Idealize.ShloMosaic Idealize.ShloMosaic.TcCoe Idealize.SL.Sem Cert.Moe

/-! ## The frames -/

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.Moe.RefStages.run (F := Ideal) m ρ)

/-! ## The idealization -/

/-- The one rewrite of the ideal pass: widening θ's block back after narrowing it is the identity at `Ideal`. -/
theorem preserves : Cert.preserves_Kernel_KernelIdeal :=
  IdealRules.truncf_extf.statement Cert.KernelIdeal.S1024x100 .f32 .bf16

/-! ## The values -/

/-- The precondition on a device: θ, both α and β finite, every domain word one of 0, 1, 2, 3. -/
theorem admissible (m : (ℓ : Loc Cert.KernelIdeal.nD Cert.KernelIdeal.τ Cert.KernelIdeal.sig) → Buf (Elt Ideal) ℓ)
    (hpre : Cert.Pre_KernelIdeal m) (c : Dev Cert.KernelIdeal.nD) : Cert.Moe.Kernel.Admissible m c := by
  obtain ⟨h0, h1, h2, h3, -, -, h6⟩ := Cert.Moe.Pre.of_pre _ _ _ _ _ _ _ (hpre c)
  exact ⟨h0, h1, h2, h3, h6⟩

/-- The kernel's run under the precondition: both result arrays at the heads of the argument arrays. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v11_0)
            = head (Kernel.thetaArr m c) (Host.alphaA m c) (Host.betaArr m c) (Kernel.biasA m c) (Kernel.domArr m c)
        ∧ r.2.mem ((c.tc : Thread Cert.KernelIdeal.nD Cert.KernelIdeal.τ).loc Cert.KernelIdeal.main_v11_1)
            = head (Kernel.thetaArr m c) (Host.alphaB m c) (Host.betaArr m c) (Kernel.biasB m c) (Kernel.domArr m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) :=
  (θ_run Cert.KernelIdeal.defs _ _).mono
    (fun _ h c => ⟨(h c).1.trans (Kernel.final8 m c (admissible m hpre c)),
      (h c).2.1.trans (Kernel.final9 m c (admissible m hpre c)), (h c).2.2⟩)
    (Cert.KernelIdeal.Value.run_blocks (F := Ideal) m ρ)

/-- Both programs end, from memories agreeing on the arguments, at the two heads of those arguments. -/
theorem algebraic : Cert.algebraic_KernelIdeal_ReferenceIdeal := by
  intro m ρ m' ρ' hpre hagree
  refine ⟨fun c => head (Kernel.thetaArr m c) (Host.alphaA m c) (Host.betaArr m c) (Kernel.biasA m c) (Kernel.domArr m c),
    fun c => head (Kernel.thetaArr m c) (Host.alphaB m c) (Host.betaArr m c) (Kernel.biasB m c) (Kernel.domArr m c),
    kernel_run m ρ hpre, ?_⟩
  refine (θ_run Cert.ReferenceIdeal.defs _ _).mono (fun _ h c => ?_) (Cert.Moe.RefStages.run (F := Ideal) m' ρ')
  obtain ⟨a0, a1, a2, a3, a4, a5, a6⟩ := hagree c
  refine ⟨(h c).1.trans ?_, (h c).2.1.trans ?_, (h c).2.2⟩
  · rw [Cert.Moe.Ref.head0, a0, a1, a3, a4, a6]
  · rw [Cert.Moe.Ref.head1, a0, a2, a3, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
